-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel

variable [Facts]

def fn {F : FTy → Type} [FloatOps F] (main_arg0 : FVec F S32x512x64x64 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  main_v3
-- ==== Kernel.lean ====
abbrev S32x512x64x64 : Shape := ⟨4, ![32, 512, 64, 64]⟩
abbrev S16384x64x64 : Shape := ⟨3, ![16384, 64, 64]⟩
abbrev S2x1x14 : Shape := ⟨3, ![2, 1, 14]⟩
abbrev S512x64x64 : Shape := ⟨3, ![512, 64, 64]⟩
abbrev S1x1x14 : Shape := ⟨3, ![1, 1, 14]⟩
abbrev S512x64 : Shape := ⟨2, ![512, 64]⟩
abbrev S512 : Shape := ⟨1, ![512]⟩
abbrev S1x512 : Shape := ⟨2, ![1, 512]⟩
abbrev S1 : Shape := ⟨1, ![1]⟩
abbrev S1x1 : Shape := ⟨2, ![1, 1]⟩
abbrev S1x1x1 : Shape := ⟨3, ![1, 1, 1]⟩
abbrev S512x32x32 : Shape := ⟨3, ![512, 32, 32]⟩
abbrev S512x32 : Shape := ⟨2, ![512, 32]⟩
abbrev S512x21x21 : Shape := ⟨3, ![512, 21, 21]⟩
abbrev S512x21 : Shape := ⟨2, ![512, 21]⟩
abbrev S_ : Shape := ⟨0, ![]⟩
abbrev S1x14 : Shape := ⟨2, ![1, 14]⟩

abbrev nBuf : Space → Nat
  | .hbm => 5
  | .vmem => 4
  | .smem => 0
  | _ => 0

abbrev bufTy : (tb : Table) → Fin (tcTables nBuf tb) → BufTy
  | .hbm, ⟨0, _⟩ => ⟨S32x512x64x64, .f32⟩
  | .hbm, ⟨1, _⟩ => ⟨S16384x64x64, .f32⟩
  | .hbm, ⟨2, _⟩ => ⟨S2x1x14, .f32⟩
  | .hbm, ⟨3, _⟩ => ⟨S_, .f32⟩
  | .hbm, ⟨4, _⟩ => ⟨S1x14, .f32⟩
  | .local _ .vmem, ⟨0, _⟩ => ⟨S512x64x64, .f32⟩
  | .local _ .vmem, ⟨1, _⟩ => ⟨S512x64x64, .f32⟩
  | .local _ .vmem, ⟨2, _⟩ => ⟨S1x1x14, .f32⟩
  | .local _ .vmem, ⟨3, _⟩ => ⟨S1x1x14, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v127 : BitVec 1 := Scalar.cmpi .eq arg1 c0_i32
  let v128 : BitVec 32 := Scalar.extui v127
  let c0_i32_79 : BitVec 32 := 0#32
  let v129 : BitVec 1 := Scalar.cmpi .ne v128 c0_i32_79
  v129

def k0_cond2 (i : grid0.Coords) : BitVec 1 :=
  let arg1 : BitVec 32 := BitVec.ofNat 32 (i 1).val
  let c0_i32_80 : BitVec 32 := 0#32
  let v130 : BitVec 1 := Scalar.cmpi .ne arg1 c0_i32_80
  let v131 : BitVec 32 := Scalar.extui v130
  let c0_i32_81 : BitVec 32 := 0#32
  let v132 : BitVec 1 := Scalar.cmpi .ne v131 c0_i32_81
  v132

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S32x512x64x64_S16384x64x64 : S32x512x64x64.ShapeCasts S16384x64x64
  inb_S512x64x64_S512x64x64_0_0_0 : ∀ a, (![0, 0, 0] : Fin 3 → Nat) a + S512x64x64.size a ≤ S512x64x64.size a
  h_S512x64x64 : 0 < S512x64x64.numel
  shapeCasts_S512x64x64_S512x64x64 : S512x64x64.ShapeCasts S512x64x64
  reduces_S512x64x64_S512x64 : S512x64x64.Reduces [2] S512x64
  reduces_S512x64_S512 : S512x64.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S512x64x64_S512x32x32_0_0_0 : ∀ a, (![0, 0, 0] : Fin 3 → Nat) a + S512x32x32.size a ≤ S512x64x64.size a
  h_S512x32x32 : 0 < S512x32x32.numel
  shapeCasts_S512x32x32_S512x32x32 : S512x32x32.ShapeCasts S512x32x32
  reduces_S512x32x32_S512x32 : S512x32x32.Reduces [2] S512x32
  reduces_S512x32_S512 : S512x32.Reduces [1] S512
  inb_S512x64x64_S512x32x32_0_0_32 : ∀ a, (![0, 0, 32] : Fin 3 → Nat) a + S512x32x32.size a ≤ S512x64x64.size a
  inb_S512x64x64_S512x32x32_0_32_0 : ∀ a, (![0, 32, 0] : Fin 3 → Nat) a + S512x32x32.size a ≤ S512x64x64.size a
  inb_S512x64x64_S512x32x32_0_32_32 : ∀ a, (![0, 32, 32] : Fin 3 → Nat) a + S512x32x32.size a ≤ S512x64x64.size a
  inb_S512x64x64_S512x21x21_0_0_0 : ∀ a, (![0, 0, 0] : Fin 3 → Nat) a + S512x21x21.size a ≤ S512x64x64.size a
  h_S512x21x21 : 0 < S512x21x21.numel
  shapeCasts_S512x21x21_S512x21x21 : S512x21x21.ShapeCasts S512x21x21
  reduces_S512x21x21_S512x21 : S512x21x21.Reduces [2] S512x21
  reduces_S512x21_S512 : S512x21.Reduces [1] S512
  inb_S512x64x64_S512x21x21_0_0_21 : ∀ a, (![0, 0, 21] : Fin 3 → Nat) a + S512x21x21.size a ≤ S512x64x64.size a
  inb_S512x64x64_S512x21x21_0_0_42 : ∀ a, (![0, 0, 42] : Fin 3 → Nat) a + S512x21x21.size a ≤ S512x64x64.size a
  inb_S512x64x64_S512x21x21_0_21_0 : ∀ a, (![0, 21, 0] : Fin 3 → Nat) a + S512x21x21.size a ≤ S512x64x64.size a
  inb_S512x64x64_S512x21x21_0_21_21 : ∀ a, (![0, 21, 21] : Fin 3 → Nat) a + S512x21x21.size a ≤ S512x64x64.size a
  inb_S512x64x64_S512x21x21_0_21_42 : ∀ a, (![0, 21, 42] : Fin 3 → Nat) a + S512x21x21.size a ≤ S512x64x64.size a
  inb_S512x64x64_S512x21x21_0_42_0 : ∀ a, (![0, 42, 0] : Fin 3 → Nat) a + S512x21x21.size a ≤ S512x64x64.size a
  inb_S512x64x64_S512x21x21_0_42_21 : ∀ a, (![0, 42, 21] : Fin 3 → Nat) a + S512x21x21.size a ≤ S512x64x64.size a
  inb_S512x64x64_S512x21x21_0_42_42 : ∀ a, (![0, 42, 42] : Fin 3 → Nat) a + S512x21x21.size a ≤ S512x64x64.size a
  concatenates_S1x1x1_S1x1x1_S1x1x1_S1x1x1_S1x1x1_S1x1x1_S1x1x1_S1x1x1_S1x1x1_S1x1x1_S1x1x1_S1x1x1_S1x1x1_S1x1x1_S1x1x14_d2 : Shape.Concatenates [S1x1x1, S1x1x1, S1x1x1, S1x1x1, S1x1x1, S1x1x1, S1x1x1, S1x1x1, S1x1x1, S1x1x1, S1x1x1, S1x1x1, S1x1x1, S1x1x1] S1x1x14 2
  inb_S1x1x14_S1x1x14_0_0_0 : ∀ a, (![0, 0, 0] : Fin 3 → Nat) a + S1x1x14.size a ≤ S1x1x14.size a
  h_S1x1x14 : 0 < S1x1x14.numel
  shapeCasts_S1x1x14_S1x1x14 : S1x1x14.ShapeCasts S1x1x14
  reducesTo_S2x1x14_S1x14_d0 : S2x1x14.ReducesTo [0] S1x14
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64x64.size a ≤ S16384x64x64.size a
  hwx0_0 : ∀ i : grid0.Coords, EltTy.bits .f32 = 32 ∨ (Rect.block (s := S16384x64x64) S512x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x14.size a ≤ S2x1x14.size a
  hwx0_1 : ∀ i : grid0.Coords, EltTy.bits .f32 = 32 ∨ (Rect.block (s := S2x1x14) S1x1x14.size (cc0_transform_1 i) (hinb0_1 i)).WholeWords (EltTy.packing .f32)

variable [Facts₀]

abbrev win0_0 : Pipeline.Window sig grid0 :=
  Pipeline.Window.ofSpec (Memref.whole main_v0) S512x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x14.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S32x512x64x64 : Shape := ⟨4, ![32, 512, 64, 64]⟩
abbrev S32x512x1x64x1x64 : Shape := ⟨6, ![32, 512, 1, 64, 1, 64]⟩
abbrev S_ : Shape := ⟨0, ![]⟩
abbrev S1x1 : Shape := ⟨2, ![1, 1]⟩
abbrev S1 : Shape := ⟨1, ![1]⟩
abbrev S32x512x2x32x2x32 : Shape := ⟨6, ![32, 512, 2, 32, 2, 32]⟩
abbrev S2x2 : Shape := ⟨2, ![2, 2]⟩
abbrev S4 : Shape := ⟨1, ![4]⟩
abbrev S32x512x63x63 : Shape := ⟨4, ![32, 512, 63, 63]⟩
abbrev S32x512x3x21x3x21 : Shape := ⟨6, ![32, 512, 3, 21, 3, 21]⟩
abbrev S3x3 : Shape := ⟨2, ![3, 3]⟩
abbrev S9 : Shape := ⟨1, ![9]⟩
abbrev S14 : Shape := ⟨1, ![14]⟩
abbrev S1x14 : Shape := ⟨2, ![1, 14]⟩

abbrev nBuf : Space → Nat
  | .hbm => 16
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S32x512x1x64x1x64, .f32⟩
  | .hbm, ⟨2, _⟩ => ⟨S_, .f32⟩
  | .hbm, ⟨3, _⟩ => ⟨S1x1, .f32⟩
  | .hbm, ⟨4, _⟩ => ⟨S1, .f32⟩
  | .hbm, ⟨5, _⟩ => ⟨S32x512x2x32x2x32, .f32⟩
  | .hbm, ⟨6, _⟩ => ⟨S_, .f32⟩
  | .hbm, ⟨7, _⟩ => ⟨S2x2, .f32⟩
  | .hbm, ⟨8, _⟩ => ⟨S4, .f32⟩
  | .hbm, ⟨9, _⟩ => ⟨S32x512x63x63, .f32⟩
  | .hbm, ⟨10, _⟩ => ⟨S32x512x3x21x3x21, .f32⟩
  | .hbm, ⟨11, _⟩ => ⟨S_, .f32⟩
  | .hbm, ⟨12, _⟩ => ⟨S3x3, .f32⟩
  | .hbm, ⟨13, _⟩ => ⟨S9, .f32⟩
  | .hbm, ⟨14, _⟩ => ⟨S14, .f32⟩
  | .hbm, ⟨15, _⟩ => ⟨S1x14, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S32x512x64x64_S32x512x1x64x1x64 : S32x512x64x64.ShapeCasts S32x512x1x64x1x64
  reducesTo_S32x512x1x64x1x64_S1x1_d0_1_3_5 : S32x512x1x64x1x64.ReducesTo [0, 1, 3, 5] S1x1
  h_S_ : 0 < S_.numel
  shapeCasts_S1x1_S1 : S1x1.ShapeCasts S1
  shapeCasts_S32x512x64x64_S32x512x2x32x2x32 : S32x512x64x64.ShapeCasts S32x512x2x32x2x32
  reducesTo_S32x512x2x32x2x32_S2x2_d0_1_3_5 : S32x512x2x32x2x32.ReducesTo [0, 1, 3, 5] S2x2
  shapeCasts_S2x2_S4 : S2x2.ShapeCasts S4
  slices_S32x512x64x64_S32x512x63x63_0_0_0_0 : S32x512x64x64.Slices ![0, 0, 0, 0] S32x512x63x63
  shapeCasts_S32x512x63x63_S32x512x3x21x3x21 : S32x512x63x63.ShapeCasts S32x512x3x21x3x21
  reducesTo_S32x512x3x21x3x21_S3x3_d0_1_3_5 : S32x512x3x21x3x21.ReducesTo [0, 1, 3, 5] S3x3
  shapeCasts_S3x3_S9 : S3x3.ShapeCasts S9
  concatenates_S1_S4_S9_S14_d0 : Shape.Concatenates [S1, S4, S9] S14 0
  bcast_S14_S1x14_1 : S14.BroadcastsInDim S1x14 (![1] : Fin 1 → Fin S1x14.rank)

variable [Facts₀]

class Facts : Prop extends Facts₀ where

variable [Facts]
-- ==== Proof.K.Runs.lean ====
/-
  The two branch conditions of the body as functions of the grid point, and the names the per-point statements share.
  The grid is 2 × 16, run row-major, so point `t` has second coordinate `t % 16`.  The first condition compares that
  coordinate with zero and the second is the negation of the comparison: exactly one of them holds at every point,
  the first at the points `t ≡ 0 (mod 16)` where the running maximum is started, the second at all the others where
  it is continued.  In particular the output window is live at every point.
-/
import proofs.«109256_j90254442758174_1_alg».proof.Proof.Gen.Kernel.Frame
import proofs.«109256_j90254442758174_1_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first condition holds exactly at the points whose second coordinate is zero. -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second condition holds exactly at the other points. -/
theorem cond2_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two conditions holds at every coordinate setting, so the output window is idle nowhere. -/
theorem idle1_false : ∀ i : grid0.Coords, idle0 1 i = false := by decide +kernel

/-- The input window is idle nowhere. -/
theorem idle0_false : ∀ i : grid0.Coords, idle0 0 i = false := fun _ => rfl

/-- One staging buffer of the output window, through which its contents are read back (any choice gives the same
    contents, the pieces written covering the block). -/
abbrev VO0_1 : View sig .tc .vmem S1x1x14 .f32 := (Memref.whole cc0_stg1_0 : Memref sig .tc .vmem S1x1x14 .f32).view

/-- Each window's current staging memref at point `t`, as the pipeline passes it to the body, and its wholeness. -/
abbrev ms0_0 (t : Fin cfg0.N) : Memref sig .tc .vmem S512x64x64 .f32 := win0_0.stage (cfg0.slots t 0)
abbrev hs0_0 (t : Fin cfg0.N) : (ms0_0 t).IsWhole := Gen.hstage0_0 ((cfg0.slots t 0).cast Gen.nbuf0_0)
abbrev ms0_1 (t : Fin cfg0.N) : Memref sig .tc .vmem S1x1x14 .f32 := win0_1.stage (cfg0.slots t 1)
abbrev hs0_1 (t : Fin cfg0.N) : (ms0_1 t).IsWhole := Gen.hstage0_1 ((cfg0.slots t 1).cast Gen.nbuf0_1)

end Cert.Kernel.Hand

end
-- ==== Proof.K.RunA.lean ====
/-
  The body at a point where the running maximum is started: the first condition holds and the second does not.
  The fourteen slices of the input block are loaded and reduced; under the first condition the output buffer is
  read (the value is not used) and then overwritten by the vector of the fourteen maxima; the second conditional is
  skipped.  The input buffer is only read, so it is returned at the contents it came with; the output buffer may
  come with any contents and is returned with one piece written over it, the whole 1 × 1 × 14 block.
-/
import proofs.«109256_j90254442758174_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body writes into the output buffer where the first condition holds and the second fails, with
    the statement that, from the input buffer at `x0` and the output buffer at anything, the body runs to any
    continuation that accepts the input buffer unchanged and the output buffer with those pieces written. -/
noncomputable def kernelRun0_A (c : Dev nD) (i : grid0.Coords) (arg2 : Memref sig .tc .vmem S512x64x64 .f32) (harg2 : arg2.IsWhole)
    (arg3 : Memref sig .tc .vmem S1x1x14 .f32) (harg3 : arg3.IsWhole) (hc1 : k0_cond1 i = 1#1) (hc2 : ¬ k0_cond2 i = 1#1)
    (x0 : Vec F S512x64x64 .f32) :
    { L1 : List (View.Piece (Elt F) S1x1x14 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__sppnet_kernel i arg2 harg2 arg3 harg3) K } := by
  refine ⟨?_, fun E K => ?run⟩
  case run =>
    simp only [cc0__sppnet_kernel_eq_skeleton]; unfold cc0__sppnet_kernel_skel
    simp only [k0_part1_eq_skeleton, k0_part2_eq_skeleton, k0_part3_eq_skeleton]
    unfold owns
    iintro ⟨⟨%f0, %hf0, H0⟩, ⟨%d1, %f1, %hf1, H1⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    iexists _; iexact H1

end Cert.Kernel.Hand

end
-- ==== Proof.K.RunB.lean ====
/-
  The body at a point where the running maximum is continued: the second condition holds and the first does not.
  The fourteen slices of the input block are loaded and reduced; the first conditional is skipped; under the second
  the output buffer is read, and the entrywise maximum of what it held and the vector of the fourteen new maxima is
  written back over the whole 1 × 1 × 14 block.  Here the output buffer's contents matter, so they are named.
-/
import proofs.«109256_j90254442758174_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body writes into the output buffer where the first condition fails and the second holds, with
    the statement that, from the input buffer at `x0` and the output buffer at `xo1`, the body runs to any
    continuation that accepts the input buffer unchanged and the output buffer with those pieces written. -/
noncomputable def kernelRun0_B (c : Dev nD) (i : grid0.Coords) (arg2 : Memref sig .tc .vmem S512x64x64 .f32) (harg2 : arg2.IsWhole)
    (arg3 : Memref sig .tc .vmem S1x1x14 .f32) (harg3 : arg3.IsWhole) (hc1 : ¬ k0_cond1 i = 1#1) (hc2 : k0_cond2 i = 1#1)
    (x0 : Vec F S512x64x64 .f32) (xo1 : Vec F S1x1x14 .f32) :
    { L1 : List (View.Piece (Elt F) S1x1x14 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__sppnet_kernel i arg2 harg2 arg3 harg3) K } := by
  refine ⟨?_, fun E K => ?run⟩
  case run =>
    simp only [cc0__sppnet_kernel_eq_skeleton]; unfold cc0__sppnet_kernel_skel
    simp only [k0_part1_eq_skeleton, k0_part2_eq_skeleton, k0_part3_eq_skeleton]
    unfold owns
    iintro ⟨⟨%f0, %hf0, H0⟩, ⟨%f1, %hf1, H1⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    iexists _; iexact H1

end Cert.Kernel.Hand

end
-- ==== Proof.K.Body.lean ====
/-
  The frame of the kernel.  At a grid point the body leaves in the output window's staging buffer either the vector
  of the fourteen maxima of the point's input block (where the running maximum is started, `t ≡ 0 (mod 16)`) or the
  entrywise maximum of that vector with what the buffer held (at every other point).  The buffer is written back
  only at the points `t ≡ 15 (mod 16)`, so at a point of the second kind it still holds what the point before
  left: the contents after point `t` are defined by recursion on `t`.  With these contents as the proof data the
  body meets its obligation at every point, and the program's run leaves the argument array as it was launched.
-/
import proofs.«109256_j90254442758174_1_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point writes -/

/-- Where the maximum is started the pieces written are one store of the whole block: they cover it. -/
theorem cover0_A_1 (c : Dev nD) (i : grid0.Coords) (arg2 : Memref sig .tc .vmem S512x64x64 .f32) (harg2 : arg2.IsWhole)
    (arg3 : Memref sig .tc .vmem S1x1x14 .f32) (harg3 : arg3.IsWhole) (hc1 : k0_cond1 i = 1#1) (hc2 : ¬ k0_cond2 i = 1#1)
    (x0 : Vec F S512x64x64 .f32) (y : S1x1x14.Idx) :
    ∃ pc ∈ (kernelRun0_A c i arg2 harg2 arg3 harg3 hc1 hc2 x0).1, y ∈ pc.1.set :=
  View.cover_of_tiledL (kernelRun0_A c i arg2 harg2 arg3 harg3 hc1 hc2 x0).1 S1x1x14.size (by sl_kernel_rfl) y

/-- The output buffer's contents after such a point: the pieces read back (over contents that do not matter). -/
def out0_A_1 (c : Dev nD) (i : grid0.Coords) (arg2 : Memref sig .tc .vmem S512x64x64 .f32) (harg2 : arg2.IsWhole)
    (arg3 : Memref sig .tc .vmem S1x1x14 .f32) (harg3 : arg3.IsWhole) (hc1 : k0_cond1 i = 1#1) (hc2 : ¬ k0_cond2 i = 1#1)
    (x0 : Vec F S512x64x64 .f32) : Vec F S1x1x14 .f32 :=
  VO0_1.read (Elt F) (VO0_1.writes (Elt F) VO0_1.junk (kernelRun0_A c i arg2 harg2 arg3 harg3 hc1 hc2 x0).1)

/-- Where the maximum is continued the pieces written are again one store of the whole block. -/
theorem cover0_B_1 (c : Dev nD) (i : grid0.Coords) (arg2 : Memref sig .tc .vmem S512x64x64 .f32) (harg2 : arg2.IsWhole)
    (arg3 : Memref sig .tc .vmem S1x1x14 .f32) (harg3 : arg3.IsWhole) (hc1 : ¬ k0_cond1 i = 1#1) (hc2 : k0_cond2 i = 1#1)
    (x0 : Vec F S512x64x64 .f32) (xo1 : Vec F S1x1x14 .f32) (y : S1x1x14.Idx) :
    ∃ pc ∈ (kernelRun0_B c i arg2 harg2 arg3 harg3 hc1 hc2 x0 xo1).1, y ∈ pc.1.set :=
  View.cover_of_tiledL (kernelRun0_B c i arg2 harg2 arg3 harg3 hc1 hc2 x0 xo1).1 S1x1x14.size (by sl_kernel_rfl) y

/-- The output buffer's contents after such a point, from the block `x0` and what the buffer held, `xo1`. -/
def out0_B_1 (c : Dev nD) (i : grid0.Coords) (arg2 : Memref sig .tc .vmem S512x64x64 .f32) (harg2 : arg2.IsWhole)
    (arg3 : Memref sig .tc .vmem S1x1x14 .f32) (harg3 : arg3.IsWhole) (hc1 : ¬ k0_cond1 i = 1#1) (hc2 : k0_cond2 i = 1#1)
    (x0 : Vec F S512x64x64 .f32) (xo1 : Vec F S1x1x14 .f32) : Vec F S1x1x14 .f32 :=
  VO0_1.read (Elt F) (VO0_1.writes (Elt F) VO0_1.junk (kernelRun0_B c i arg2 harg2 arg3 harg3 hc1 hc2 x0 xo1).1)

/-! ## The output buffer after each point -/

/-- What the output window's staging buffer holds after the body at position `n`: started afresh from the
    point's block where `n ≡ 0 (mod 16)`, otherwise continued from what position `n - 1` left. -/
def outsAt0 (c : Dev nD) : (n : ℕ) → n < cfg0.N → Vec F S1x1x14 .f32
  | 0, hn => out0_A_1 c (grid0.coords ⟨0, hn⟩) (ms0_0 ⟨0, hn⟩) (hs0_0 ⟨0, hn⟩) (ms0_1 ⟨0, hn⟩) (hs0_1 ⟨0, hn⟩)
      ((cond1_iff ⟨0, hn⟩).mpr (Nat.zero_mod _)) (fun h => (cond2_iff ⟨0, hn⟩).mp h (Nat.zero_mod _)) (iblk m c 0 ⟨0, hn⟩)
  | n + 1, hn =>
    if h0 : (n + 1) % 16 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩)
        ((cond1_iff ⟨n + 1, hn⟩).mpr h0) (fun h => (cond2_iff ⟨n + 1, hn⟩).mp h h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩)
        (fun h => h0 ((cond1_iff ⟨n + 1, hn⟩).mp h)) ((cond2_iff ⟨n + 1, hn⟩).mpr h0) (iblk m c 0 ⟨n + 1, hn⟩)
        (outsAt0 c n (Nat.lt_of_succ_lt hn))

/-- `outsAt0` at a point where the maximum is started. -/
theorem outsAt0_A (c : Dev nD) (t : Fin cfg0.N) (h0 : t.val % 16 = 0) :
    outsAt0 m c t.val t.isLt = out0_A_1 c (grid0.coords t) (ms0_0 t) (hs0_0 t) (ms0_1 t) (hs0_1 t)
      ((cond1_iff t).mpr h0) (fun h => (cond2_iff t).mp h h0) (iblk m c 0 t) := by
  obtain ⟨n, hn⟩ := t
  cases n with
  | zero => exact rfl
  | succ n => exact (dif_pos h0).trans rfl

/-- `outsAt0` at a point where the maximum is continued: over what the point before left. -/
theorem outsAt0_B (c : Dev nD) (t : Fin cfg0.N) (h0 : ¬ t.val % 16 = 0) :
    outsAt0 m c t.val t.isLt = out0_B_1 c (grid0.coords t) (ms0_0 t) (hs0_0 t) (ms0_1 t) (hs0_1 t)
      (fun h => h0 ((cond1_iff t).mp h)) ((cond2_iff t).mpr h0) (iblk m c 0 t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` the input's buffer at its block and the output's
    at `outsAt0`; the invariant the scoped rest and the generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The output window is live at every coordinate setting, read at the pipeline's configuration. -/
theorem live0_1 : ∀ i : cfg0.grid.Coords, cfg0.idle 1 i = false := fun i => idle1_false i

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- Where the maximum is continued the output's current staging buffer holds what the point before left: the point
    is not the first, the point before did not write the buffer back (`(t - 1) % 16 ≠ 15` since `t % 16 ≠ 0`), and the
    window is live everywhere and uncut. -/
theorem before0_1_B (c : Dev nD) (t : Fin cfg0.N) (h0 : ¬ t.val % 16 = 0) (d) :
    (dats m 0 c).before 1 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    live0_1 (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point.  The input's buffer holds its block; the closed forms of the two conditions say which kind
    the point is of; at a point of the second kind the output's buffer holds what the point before left; so the run of
    that kind applies, and the pieces it wrote, covering the block, read back as the stated contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 32 := lt_of_lt_of_eq t.isLt (show cfg0.N = 32 from N_0)
  by_cases h0 : t.val % 16 = 0
  · rw [outsAt0_A m c t h0]
    unfold out0_A_1
    iintro ⟨HΦ, Ho, ⟨%d0, H0⟩, ⟨%d1, H1⟩⟩
    iapply ((kernelRun0_A c (grid0.coords t) _ _ _ _ ((cond1_iff t).mpr h0) (fun h => (cond2_iff t).mp h h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((cond1_iff t).mp h)) ((cond2_iff t).mpr h0) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The body obligation at every point: the windows opened one by one, the output window live at the point. -/
theorem body_obligation (c : Dev nD) : BodyObligation (dats (F := F) m 0 c) (defs₀ (F := F)) Variants.none () Set.univ := fun t => by
  rw [bigSep_W0, bigSep_W0]
  rw [live0_1 (cfg0.grid.coords t)]
  exact sound_body m c t

/-! ## The run and the frame -/

set_option backward.isDefEq.respectTransparency.types false in
/-- Every fair execution of the program terminates, with every array of the pipeline at what the proof data give and
    every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KI.Runs.lean ====
/-
  The two branch conditions of the body as functions of the grid point, and the names the per-point statements share.
  The grid is 2 × 16, run row-major, so point `t` has second coordinate `t % 16`.  The first condition compares that
  coordinate with zero and the second is the negation of the comparison: exactly one of them holds at every point,
  the first at the points `t ≡ 0 (mod 16)` where the running maximum is started, the second at all the others where
  it is continued.  In particular the output window is live at every point.
-/
import proofs.«109256_j90254442758174_1_alg».proof.Proof.Gen.KernelIdeal.Frame
import proofs.«109256_j90254442758174_1_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first condition holds exactly at the points whose second coordinate is zero. -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second condition holds exactly at the other points. -/
theorem cond2_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two conditions holds at every coordinate setting, so the output window is idle nowhere. -/
theorem idle1_false : ∀ i : grid0.Coords, idle0 1 i = false := by decide +kernel

/-- The input window is idle nowhere. -/
theorem idle0_false : ∀ i : grid0.Coords, idle0 0 i = false := fun _ => rfl

/-- One staging buffer of the output window, through which its contents are read back (any choice gives the same
    contents, the pieces written covering the block). -/
abbrev VO0_1 : View sig .tc .vmem S1x1x14 .f32 := (Memref.whole cc0_stg1_0 : Memref sig .tc .vmem S1x1x14 .f32).view

/-- Each window's current staging memref at point `t`, as the pipeline passes it to the body, and its wholeness. -/
abbrev ms0_0 (t : Fin cfg0.N) : Memref sig .tc .vmem S512x64x64 .f32 := win0_0.stage (cfg0.slots t 0)
abbrev hs0_0 (t : Fin cfg0.N) : (ms0_0 t).IsWhole := Gen.hstage0_0 ((cfg0.slots t 0).cast Gen.nbuf0_0)
abbrev ms0_1 (t : Fin cfg0.N) : Memref sig .tc .vmem S1x1x14 .f32 := win0_1.stage (cfg0.slots t 1)
abbrev hs0_1 (t : Fin cfg0.N) : (ms0_1 t).IsWhole := Gen.hstage0_1 ((cfg0.slots t 1).cast Gen.nbuf0_1)

end Cert.KernelIdeal.Hand

end
-- ==== Proof.KI.RunA.lean ====
/-
  The body at a point where the running maximum is started: the first condition holds and the second does not.
  The fourteen slices of the input block are loaded and reduced; under the first condition the output buffer is
  read (the value is not used) and then overwritten by the vector of the fourteen maxima; the second conditional is
  skipped.  The input buffer is only read, so it is returned at the contents it came with; the output buffer may
  come with any contents and is returned with one piece written over it, the whole 1 × 1 × 14 block.
-/
import proofs.«109256_j90254442758174_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body writes into the output buffer where the first condition holds and the second fails, with
    the statement that, from the input buffer at `x0` and the output buffer at anything, the body runs to any
    continuation that accepts the input buffer unchanged and the output buffer with those pieces written. -/
noncomputable def kernelRun0_A (c : Dev nD) (i : grid0.Coords) (arg2 : Memref sig .tc .vmem S512x64x64 .f32) (harg2 : arg2.IsWhole)
    (arg3 : Memref sig .tc .vmem S1x1x14 .f32) (harg3 : arg3.IsWhole) (hc1 : k0_cond1 i = 1#1) (hc2 : ¬ k0_cond2 i = 1#1)
    (x0 : Vec F S512x64x64 .f32) :
    { L1 : List (View.Piece (Elt F) S1x1x14 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__sppnet_kernel i arg2 harg2 arg3 harg3) K } := by
  refine ⟨?_, fun E K => ?run⟩
  case run =>
    simp only [cc0__sppnet_kernel_eq_skeleton]; unfold cc0__sppnet_kernel_skel
    simp only [k0_part1_eq_skeleton, k0_part2_eq_skeleton, k0_part3_eq_skeleton]
    unfold owns
    iintro ⟨⟨%f0, %hf0, H0⟩, ⟨%d1, %f1, %hf1, H1⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    iexists _; iexact H1

end Cert.KernelIdeal.Hand

end
-- ==== Proof.KI.RunB.lean ====
/-
  The body at a point where the running maximum is continued: the second condition holds and the first does not.
  The fourteen slices of the input block are loaded and reduced; the first conditional is skipped; under the second
  the output buffer is read, and the entrywise maximum of what it held and the vector of the fourteen new maxima is
  written back over the whole 1 × 1 × 14 block.  Here the output buffer's contents matter, so they are named.
-/
import proofs.«109256_j90254442758174_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body writes into the output buffer where the first condition fails and the second holds, with
    the statement that, from the input buffer at `x0` and the output buffer at `xo1`, the body runs to any
    continuation that accepts the input buffer unchanged and the output buffer with those pieces written. -/
noncomputable def kernelRun0_B (c : Dev nD) (i : grid0.Coords) (arg2 : Memref sig .tc .vmem S512x64x64 .f32) (harg2 : arg2.IsWhole)
    (arg3 : Memref sig .tc .vmem S1x1x14 .f32) (harg3 : arg3.IsWhole) (hc1 : ¬ k0_cond1 i = 1#1) (hc2 : k0_cond2 i = 1#1)
    (x0 : Vec F S512x64x64 .f32) (xo1 : Vec F S1x1x14 .f32) :
    { L1 : List (View.Piece (Elt F) S1x1x14 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__sppnet_kernel i arg2 harg2 arg3 harg3) K } := by
  refine ⟨?_, fun E K => ?run⟩
  case run =>
    simp only [cc0__sppnet_kernel_eq_skeleton]; unfold cc0__sppnet_kernel_skel
    simp only [k0_part1_eq_skeleton, k0_part2_eq_skeleton, k0_part3_eq_skeleton]
    unfold owns
    iintro ⟨⟨%f0, %hf0, H0⟩, ⟨%f1, %hf1, H1⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    iexists _; iexact H1

end Cert.KernelIdeal.Hand

end
-- ==== Proof.KI.Body.lean ====
/-
  The frame of the kernel.  At a grid point the body leaves in the output window's staging buffer either the vector
  of the fourteen maxima of the point's input block (where the running maximum is started, `t ≡ 0 (mod 16)`) or the
  entrywise maximum of that vector with what the buffer held (at every other point).  The buffer is written back
  only at the points `t ≡ 15 (mod 16)`, so at a point of the second kind it still holds what the point before
  left: the contents after point `t` are defined by recursion on `t`.  With these contents as the proof data the
  body meets its obligation at every point, and the program's run leaves the argument array as it was launched.
-/
import proofs.«109256_j90254442758174_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point writes -/

/-- Where the maximum is started the pieces written are one store of the whole block: they cover it. -/
theorem cover0_A_1 (c : Dev nD) (i : grid0.Coords) (arg2 : Memref sig .tc .vmem S512x64x64 .f32) (harg2 : arg2.IsWhole)
    (arg3 : Memref sig .tc .vmem S1x1x14 .f32) (harg3 : arg3.IsWhole) (hc1 : k0_cond1 i = 1#1) (hc2 : ¬ k0_cond2 i = 1#1)
    (x0 : Vec F S512x64x64 .f32) (y : S1x1x14.Idx) :
    ∃ pc ∈ (kernelRun0_A c i arg2 harg2 arg3 harg3 hc1 hc2 x0).1, y ∈ pc.1.set :=
  View.cover_of_tiledL (kernelRun0_A c i arg2 harg2 arg3 harg3 hc1 hc2 x0).1 S1x1x14.size (by sl_kernel_rfl) y

/-- The output buffer's contents after such a point: the pieces read back (over contents that do not matter). -/
def out0_A_1 (c : Dev nD) (i : grid0.Coords) (arg2 : Memref sig .tc .vmem S512x64x64 .f32) (harg2 : arg2.IsWhole)
    (arg3 : Memref sig .tc .vmem S1x1x14 .f32) (harg3 : arg3.IsWhole) (hc1 : k0_cond1 i = 1#1) (hc2 : ¬ k0_cond2 i = 1#1)
    (x0 : Vec F S512x64x64 .f32) : Vec F S1x1x14 .f32 :=
  VO0_1.read (Elt F) (VO0_1.writes (Elt F) VO0_1.junk (kernelRun0_A c i arg2 harg2 arg3 harg3 hc1 hc2 x0).1)

/-- Where the maximum is continued the pieces written are again one store of the whole block. -/
theorem cover0_B_1 (c : Dev nD) (i : grid0.Coords) (arg2 : Memref sig .tc .vmem S512x64x64 .f32) (harg2 : arg2.IsWhole)
    (arg3 : Memref sig .tc .vmem S1x1x14 .f32) (harg3 : arg3.IsWhole) (hc1 : ¬ k0_cond1 i = 1#1) (hc2 : k0_cond2 i = 1#1)
    (x0 : Vec F S512x64x64 .f32) (xo1 : Vec F S1x1x14 .f32) (y : S1x1x14.Idx) :
    ∃ pc ∈ (kernelRun0_B c i arg2 harg2 arg3 harg3 hc1 hc2 x0 xo1).1, y ∈ pc.1.set :=
  View.cover_of_tiledL (kernelRun0_B c i arg2 harg2 arg3 harg3 hc1 hc2 x0 xo1).1 S1x1x14.size (by sl_kernel_rfl) y

/-- The output buffer's contents after such a point, from the block `x0` and what the buffer held, `xo1`. -/
def out0_B_1 (c : Dev nD) (i : grid0.Coords) (arg2 : Memref sig .tc .vmem S512x64x64 .f32) (harg2 : arg2.IsWhole)
    (arg3 : Memref sig .tc .vmem S1x1x14 .f32) (harg3 : arg3.IsWhole) (hc1 : ¬ k0_cond1 i = 1#1) (hc2 : k0_cond2 i = 1#1)
    (x0 : Vec F S512x64x64 .f32) (xo1 : Vec F S1x1x14 .f32) : Vec F S1x1x14 .f32 :=
  VO0_1.read (Elt F) (VO0_1.writes (Elt F) VO0_1.junk (kernelRun0_B c i arg2 harg2 arg3 harg3 hc1 hc2 x0 xo1).1)

/-! ## The output buffer after each point -/

/-- What the output window's staging buffer holds after the body at position `n`: started afresh from the
    point's block where `n ≡ 0 (mod 16)`, otherwise continued from what position `n - 1` left. -/
def outsAt0 (c : Dev nD) : (n : ℕ) → n < cfg0.N → Vec F S1x1x14 .f32
  | 0, hn => out0_A_1 c (grid0.coords ⟨0, hn⟩) (ms0_0 ⟨0, hn⟩) (hs0_0 ⟨0, hn⟩) (ms0_1 ⟨0, hn⟩) (hs0_1 ⟨0, hn⟩)
      ((cond1_iff ⟨0, hn⟩).mpr (Nat.zero_mod _)) (fun h => (cond2_iff ⟨0, hn⟩).mp h (Nat.zero_mod _)) (iblk m c 0 ⟨0, hn⟩)
  | n + 1, hn =>
    if h0 : (n + 1) % 16 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩)
        ((cond1_iff ⟨n + 1, hn⟩).mpr h0) (fun h => (cond2_iff ⟨n + 1, hn⟩).mp h h0) (iblk m c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩)
        (fun h => h0 ((cond1_iff ⟨n + 1, hn⟩).mp h)) ((cond2_iff ⟨n + 1, hn⟩).mpr h0) (iblk m c 0 ⟨n + 1, hn⟩)
        (outsAt0 c n (Nat.lt_of_succ_lt hn))

/-- `outsAt0` at a point where the maximum is started. -/
theorem outsAt0_A (c : Dev nD) (t : Fin cfg0.N) (h0 : t.val % 16 = 0) :
    outsAt0 m c t.val t.isLt = out0_A_1 c (grid0.coords t) (ms0_0 t) (hs0_0 t) (ms0_1 t) (hs0_1 t)
      ((cond1_iff t).mpr h0) (fun h => (cond2_iff t).mp h h0) (iblk m c 0 t) := by
  obtain ⟨n, hn⟩ := t
  cases n with
  | zero => exact rfl
  | succ n => exact (dif_pos h0).trans rfl

/-- `outsAt0` at a point where the maximum is continued: over what the point before left. -/
theorem outsAt0_B (c : Dev nD) (t : Fin cfg0.N) (h0 : ¬ t.val % 16 = 0) :
    outsAt0 m c t.val t.isLt = out0_B_1 c (grid0.coords t) (ms0_0 t) (hs0_0 t) (ms0_1 t) (hs0_1 t)
      (fun h => h0 ((cond1_iff t).mp h)) ((cond2_iff t).mpr h0) (iblk m c 0 t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point `t` the input's buffer at its block and the output's
    at `outsAt0`; the invariant the scoped rest and the generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt) := by dsimp only [dats]

/-- The output window is live at every coordinate setting, read at the pipeline's configuration. -/
theorem live0_1 : ∀ i : cfg0.grid.Coords, cfg0.idle 1 i = false := fun i => idle1_false i

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- Where the maximum is continued the output's current staging buffer holds what the point before left: the point
    is not the first, the point before did not write the buffer back (`(t - 1) % 16 ≠ 15` since `t % 16 ≠ 0`), and the
    window is live everywhere and uncut. -/
theorem before0_1_B (c : Dev nD) (t : Fin cfg0.N) (h0 : ¬ t.val % 16 = 0) (d) :
    (dats m 0 c).before 1 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    live0_1 (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point.  The input's buffer holds its block; the closed forms of the two conditions say which kind
    the point is of; at a point of the second kind the output's buffer holds what the point before left; so the run of
    that kind applies, and the pieces it wrote, covering the block, read back as the stated contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  have hN : t.val < 32 := lt_of_lt_of_eq t.isLt (show cfg0.N = 32 from N_0)
  by_cases h0 : t.val % 16 = 0
  · rw [outsAt0_A m c t h0]
    unfold out0_A_1
    iintro ⟨HΦ, Ho, ⟨%d0, H0⟩, ⟨%d1, H1⟩⟩
    iapply ((kernelRun0_A c (grid0.coords t) _ _ _ _ ((cond1_iff t).mpr h0) (fun h => (cond2_iff t).mp h h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · rw [outsAt0_B m c t h0]
    simp only [before0_1_B m c t h0]
    unfold out0_B_1
    iintro ⟨HΦ, Ho, ⟨%d0, H0⟩, ⟨%d1, H1⟩⟩
    iapply ((kernelRun0_B c (grid0.coords t) _ _ _ _ (fun h => h0 ((cond1_iff t).mp h)) ((cond2_iff t).mpr h0) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _ _)

/-- The body obligation at every point: the windows opened one by one, the output window live at the point. -/
theorem body_obligation (c : Dev nD) : BodyObligation (dats (F := F) m 0 c) (defs₀ (F := F)) Variants.none () Set.univ := fun t => by
  rw [bigSep_W0, bigSep_W0]
  rw [live0_1 (cfg0.grid.coords t)]
  exact sound_body m c t

/-! ## The run and the frame -/

set_option backward.isDefEq.respectTransparency.types false in
/-- Every fair execution of the program terminates, with every array of the pipeline at what the proof data give and
    every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument array ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.KI.Pool.lean ====
/-
  What one grid point contributes.  The body reads fourteen square slices of its 512 × 64 × 64 input block (all 512
  channels; rows and columns of one pooled region), takes the maximum of each — over columns, then rows, then channels —
  and lines the fourteen maxima up along the last axis of a 1 × 1 × 14 vector.  `slice` is such a slice as a function of
  the block, and `newv` the vector of the fourteen maxima as a function of the fourteen loaded slices.
-/
import proofs.«109256_j90254442758174_1_alg».proof.Proof.Gen.KernelIdeal.Skeleton
import Idealize.ShloMosaic.Lib.ValueIdx

noncomputable section

namespace Cert.KernelIdeal.Pool

open Idealize.ShloMosaic Idealize.ShloMosaic.ValueIdx Cert.KernelIdeal Cert.KernelIdeal.Gen

variable {F : FTy → Type} [FloatOps F]

/-- The `E × E` square of the block with first row `ho` and first column `wo`, over all 512 channels. -/
def slice (E ho wo : ℕ) (hh : ho + E ≤ 64) (hw : wo + E ≤ 64) (x : Vec F S512x64x64 .f32) :
    Vec F (⟨3, ![512, E, E]⟩ : Shape) .f32 :=
  fun i => x (ix3 (n0 := 512) (n1 := 64) (n2 := 64) ⟨(i 0).val, (i 0).isLt⟩
    ⟨ho + (i 1).val, by have h1 : (i 1).val < E := (i 1).isLt; omega⟩
    ⟨wo + (i 2).val, by have h2 : (i 2).val < E := (i 2).isLt; omega⟩)

/-- The fourteen maxima of one block, from the fourteen loaded slices (in the order the body loads them). -/
def newv (v0 : Vec F S512x64x64 .f32) (v9 v18 v27 v36 : Vec F S512x32x32 .f32)
    (v45 v54 v63 v72 v81 v90 v99 v108 v117 : Vec F S512x21x21 .f32) : FVec F S1x1x14 .f32 :=
  k0_pay1 (k0_pay3 v0) (k0_pay4 v9) (k0_pay5 v18) (k0_pay7 (k0_pay6 v27)) (k0_pay8 v36) (k0_pay9 v45) (k0_pay10 v54)
    (k0_pay12 (k0_pay11 v63)) (k0_pay13 v72) (k0_pay14 v81) (k0_pay15 v90) (k0_pay16 v99) v108 v117

/-- The fourteen maxima of the block `x`: `newv` at the block's fourteen slices. -/
def newvS (x : Vec F S512x64x64 .f32) : FVec F S1x1x14 .f32 :=
  newv (slice 64 0 0 (by decide) (by decide) x)
    (slice 32 0 0 (by decide) (by decide) x) (slice 32 0 32 (by decide) (by decide) x)
    (slice 32 32 0 (by decide) (by decide) x) (slice 32 32 32 (by decide) (by decide) x)
    (slice 21 0 0 (by decide) (by decide) x) (slice 21 0 21 (by decide) (by decide) x) (slice 21 0 42 (by decide) (by decide) x)
    (slice 21 21 0 (by decide) (by decide) x) (slice 21 21 21 (by decide) (by decide) x) (slice 21 21 42 (by decide) (by decide) x)
    (slice 21 42 0 (by decide) (by decide) x) (slice 21 42 21 (by decide) (by decide) x) (slice 21 42 42 (by decide) (by decide) x)

end Cert.KernelIdeal.Pool

end
-- ==== Proof.KI.Pieces.lean ====
/-
  The contents the body leaves in the output buffer, as values.  A load of a unit-stride rectangle of the input
  block with first row `ho`, first column `wo` and side `E` over all 512 channels reads the block at the indices
  `(ch, ho + r, wo + s)`: it is the slice of the block the pooling is stated over.  So the one piece a point writes is
  the vector of the fourteen maxima of the point's block where the running maximum is started, and the entrywise
  maximum of that vector with what the buffer held where it is continued (the shape cast of the old contents to
  their own shape being the identity).
-/
import proofs.«109256_j90254442758174_1_alg».proof.Proof.KI.Body
import proofs.«109256_j90254442758174_1_alg».proof.Proof.KI.Pool
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The offsets `(0, 0, 0)` are the zero function. -/
theorem off_zero3 : (![0, 0, 0] : Fin 3 → ℕ) = fun _ => 0 := by
  funext a; match a with | ⟨0, _⟩ => rfl | ⟨1, _⟩ => rfl | ⟨2, _⟩ => rfl

/-- A load of the `E × E` square at `(ho, wo)`, all channels, from a whole buffer holding the block `x` reads the
    slice of `x`: index `(ch, r, s)` of the rectangle sits at `(0 + ch, ho + r, wo + s)` of the block. -/
theorem readAt_slice {arg2 : Memref sig .tc .vmem S512x64x64 .f32} (harg2 : arg2.IsWhole) (x : Vec F S512x64x64 .f32)
    (E ho wo : ℕ) (hh : ho + E ≤ 64) (hw : wo + E ≤ 64)
    (inb : ∀ a, (![0, ho, wo] : Fin 3 → ℕ) a + (![512, E, E] : Fin 3 → ℕ) a ≤ S512x64x64.size a) :
    View.readAt (Elt F) arg2.view (Rect.unit (s := S512x64x64) ![0, ho, wo] ![512, E, E] inb).toLoadRect (harg2.unread x)
      = Pool.slice E ho wo hh hw x := by
  rw [View.readAt_eq_ld, harg2.read_unread]
  funext j
  show x _ = x _
  congr 1
  funext a
  apply Fin.ext
  match a with
  | ⟨0, _⟩ => show 0 + 1 * (j 0).val = (j 0).val; omega
  | ⟨1, _⟩ => show ho + 1 * (j 1).val = ho + (j 1).val; omega
  | ⟨2, _⟩ => show wo + 1 * (j 2).val = wo + (j 2).val; omega

/-- Where the running maximum is started the buffer ends holding the fourteen maxima of the block. -/
theorem out0_A_1_eq (c : Dev nD) (i : grid0.Coords) (arg2 : Memref sig .tc .vmem S512x64x64 .f32) (harg2 : arg2.IsWhole)
    (arg3 : Memref sig .tc .vmem S1x1x14 .f32) (harg3 : arg3.IsWhole) (hc1 : k0_cond1 i = 1#1) (hc2 : ¬ k0_cond2 i = 1#1)
    (x0 : Vec F S512x64x64 .f32) :
    out0_A_1 c i arg2 harg2 arg3 harg3 hc1 hc2 x0 = Pool.newvS x0 := by
  unfold out0_A_1
  rw [View.read_writes_eq_canon _ _ _ (cover0_A_1 c i arg2 harg2 arg3 harg3 hc1 hc2 x0)]
  unfold kernelRun0_A
  dsimp only
  sl_unfold_words
  rw [View.canon_unit_zero off_zero3]
  rw [readAt_slice harg2 x0 64 0 0 (by decide) (by decide),
    readAt_slice harg2 x0 32 0 0 (by decide) (by decide), readAt_slice harg2 x0 32 0 32 (by decide) (by decide),
    readAt_slice harg2 x0 32 32 0 (by decide) (by decide), readAt_slice harg2 x0 32 32 32 (by decide) (by decide),
    readAt_slice harg2 x0 21 0 0 (by decide) (by decide), readAt_slice harg2 x0 21 0 21 (by decide) (by decide),
    readAt_slice harg2 x0 21 0 42 (by decide) (by decide), readAt_slice harg2 x0 21 21 0 (by decide) (by decide),
    readAt_slice harg2 x0 21 21 21 (by decide) (by decide), readAt_slice harg2 x0 21 21 42 (by decide) (by decide),
    readAt_slice harg2 x0 21 42 0 (by decide) (by decide), readAt_slice harg2 x0 21 42 21 (by decide) (by decide),
    readAt_slice harg2 x0 21 42 42 (by decide) (by decide)]
  rfl

/-- Where it is continued the buffer ends holding, entry by entry, the larger of what it held and the new maximum. -/
theorem out0_B_1_eq (c : Dev nD) (i : grid0.Coords) (arg2 : Memref sig .tc .vmem S512x64x64 .f32) (harg2 : arg2.IsWhole)
    (arg3 : Memref sig .tc .vmem S1x1x14 .f32) (harg3 : arg3.IsWhole) (hc1 : ¬ k0_cond1 i = 1#1) (hc2 : k0_cond2 i = 1#1)
    (x0 : Vec F S512x64x64 .f32) (xo1 : Vec F S1x1x14 .f32) :
    out0_B_1 c i arg2 harg2 arg3 harg3 hc1 hc2 x0 xo1 = fun j => FloatOps.maximumf (xo1 j) (Pool.newvS x0 j) := by
  unfold out0_B_1
  rw [View.read_writes_eq_canon _ _ _ (cover0_B_1 c i arg2 harg2 arg3 harg3 hc1 hc2 x0 xo1)]
  unfold kernelRun0_B
  dsimp only
  sl_unfold_words
  rw [View.canon_unit_zero off_zero3]
  rw [readAt_slice harg2 x0 64 0 0 (by decide) (by decide),
    readAt_slice harg2 x0 32 0 0 (by decide) (by decide), readAt_slice harg2 x0 32 0 32 (by decide) (by decide),
    readAt_slice harg2 x0 32 32 0 (by decide) (by decide), readAt_slice harg2 x0 32 32 32 (by decide) (by decide),
    readAt_slice harg2 x0 21 0 0 (by decide) (by decide), readAt_slice harg2 x0 21 0 21 (by decide) (by decide),
    readAt_slice harg2 x0 21 0 42 (by decide) (by decide), readAt_slice harg2 x0 21 21 0 (by decide) (by decide),
    readAt_slice harg2 x0 21 21 21 (by decide) (by decide), readAt_slice harg2 x0 21 21 42 (by decide) (by decide),
    readAt_slice harg2 x0 21 42 0 (by decide) (by decide), readAt_slice harg2 x0 21 42 21 (by decide) (by decide),
    readAt_slice harg2 x0 21 42 42 (by decide) (by decide)]
  rw [View.readAt_eq_ld, harg3.read_unread, View.ld_unit_zero (S := S1x1x14) off_zero3]
  funext j
  show FloatOps.maximumf (shapeCast S1x1x14 xo1 shapeCasts_S1x1x14_S1x1x14 j) (Pool.newvS x0 j) = _
  rw [shapeCast_self]

end Cert.KernelIdeal.Hand

end
-- ==== Proof.Spec.lean ====
/-
  The pooled regions. The spatial map is 64 × 64; level k ∈ {1, 2, 3} cuts it into k × k square regions of side 64 / k
  (64, 32, 21: at k = 3 the last row and column are left out), listed level by level and row-major inside a level:
  region 0 is the whole map, regions 1..4 the four quadrants, regions 5..13 the nine 21 × 21 squares.  Both programs
  compute, for each region, the maximum of the input over every batch entry, every channel and the region's pixels.
-/
import Idealize.ShloMosaic.PureOps.Ideal
import Idealize.ShloMosaic.Lib.ValueIdx

namespace Cert.Spp

/-- First row of region `j`. -/
def hoff : Fin 14 → ℕ := ![0, 0, 0, 32, 32, 0, 0, 0, 21, 21, 21, 42, 42, 42]
/-- First column of region `j`. -/
def woff : Fin 14 → ℕ := ![0, 0, 32, 0, 32, 0, 21, 42, 0, 21, 42, 0, 21, 42]
/-- Side of region `j` (the regions are squares). -/
def ext : Fin 14 → ℕ := ![64, 32, 32, 32, 32, 21, 21, 21, 21, 21, 21, 21, 21, 21]

/-- Pixel `(h, w)` lies in region `j`. -/
def InRegion (j : Fin 14) (h w : ℕ) : Prop :=
  hoff j ≤ h ∧ h < hoff j + ext j ∧ woff j ≤ w ∧ w < woff j + ext j

/-- Every region lies inside the 64 × 64 map. -/
theorem region_inb : ∀ j : Fin 14, hoff j + ext j ≤ 64 ∧ woff j + ext j ≤ 64 := by decide

/-- Two extended reals with the same upper bounds are equal. -/
theorem eq_of_le_iff {a b : EReal} (h : ∀ M : EReal, a ≤ M ↔ b ≤ M) : a = b :=
  le_antisymm ((h b).mpr le_rfl) ((h a).mp le_rfl)

end Cert.Spp
-- ==== Proof.KI.PoolMax.lean ====
/-
  The fourteen maxima of one block and their upper bounds.  For a 512 × 64 × 64 block `x` the body takes, for each of the
  fourteen pooled regions, the maximum of the region's `512 × E × E` slice of `x`: over columns, then rows, then channels,
  each time starting from `-∞`.  On the extended reals a maximum started from the least element is below a bound `M`
  exactly when every term is, so such a nested maximum is below `M` exactly when every entry of the slice is
  (`core_le_iff`, for any side `E`); the slice's entries are the block's entries whose pixel lies in the region
  (`slice_le_iff`); and position `j` of the vector of maxima holds the maximum of region `j` (`newv_apply`).  Together:
  `newvS_le_iff`, which says that entry `j` of the vector and the entries of `x` in region `j` have the same upper bounds,
  that is, entry `j` is their supremum.
-/
import proofs.«109256_j90254442758174_1_alg».proof.Proof.KI.Pool
import proofs.«109256_j90254442758174_1_alg».proof.Proof.Spec
import Idealize.ShloMosaic.PureOps.Ideal.Laws
import Idealize.ShloMosaic.Lib.Pipeline.Value
import Idealize.ShloMosaic.Lib.ValueIdx
import Mathlib.Data.Finset.Fold

namespace Cert.KernelIdeal.PoolMax

open Idealize.ShloMosaic Idealize.ShloMosaic.ValueIdx Cert.KernelIdeal Cert.KernelIdeal.Gen

/-- The accumulator word of every reduction here denotes the least extended real. -/
theorem ofBits_negInf : Ideal.ofBits .f32 0xFF800000#32 = ⊥ := by simp [Ideal.ofBits, Ideal.ieee]

/-- A maximum over one axis, started from the least element, is below `M` exactly when every entry along that axis is. -/
theorem maxRed_le_iff {s t : Shape} {a : Fin s.rank} (src : FVec Ideal s .f32) (h : s.Reduces [a] t)
    (hφ : FKind.Formats .f32) (hacc : (0xFF800000#32 : BitVec FTy.f32.bits) = FKind.maximumf.neutral .f32 hφ)
    (j : t.Idx) (M : EReal) :
    (multiReduction .maximumf [a] t src 0xFF800000#32 h hφ hacc j : EReal) ≤ M
      ↔ ∀ k : Fin (s.size a), (src (h.lift j k) : EReal) ≤ M := by
  rw [Ideal.multiReduction_maximumf_single, Finset.fold_max_le]
  constructor
  · rintro ⟨_, hk⟩ k; exact hk k (Finset.mem_univ k)
  · intro hk
    refine ⟨?_, fun k _ => hk k⟩
    show Ideal.ofBits .f32 0xFF800000#32 ≤ M
    rw [ofBits_negInf]; exact bot_le

/-- The source index over `(c, r)` with `w` inserted on the last axis. -/
theorem lift32 {n0 n1 n2 : ℕ} (h : (⟨3, ![n0, n1, n2]⟩ : Shape).Reduces [2] ⟨2, ![n0, n1]⟩)
    (c : Fin n0) (r : Fin n1) (w : Fin n2) : h.lift (ix2 c r) w = ix3 c r w := by
  funext d; apply Fin.ext
  match d with
  | ⟨0, _⟩ => rfl
  | ⟨1, _⟩ => rfl
  | ⟨2, _⟩ => rfl

/-- The source index over `c` with `r` inserted on the last axis. -/
theorem lift21 {n0 n1 : ℕ} (h : (⟨2, ![n0, n1]⟩ : Shape).Reduces [1] ⟨1, ![n0]⟩)
    (c : Fin n0) (r : Fin n1) : h.lift (ix1 c) r = ix2 c r := by
  funext d; apply Fin.ext
  match d with
  | ⟨0, _⟩ => rfl
  | ⟨1, _⟩ => rfl

/-- The maximum over columns, then rows, then channels of a `512 × E × E` slice, as the body takes it, is below `M`
    exactly when every entry of the slice is. -/
theorem core_le_iff {E : ℕ}
    (hc : (⟨3, ![512, E, E]⟩ : Shape).ShapeCasts ⟨3, ![512, E, E]⟩)
    (h2 : (⟨3, ![512, E, E]⟩ : Shape).Reduces [2] ⟨2, ![512, E]⟩)
    (h1 : (⟨2, ![512, E]⟩ : Shape).Reduces [1] S512)
    (hc1 : S512.ShapeCasts S1x512) (h0 : S1x512.Reduces [1] S1)
    (hφ : FKind.Formats .f32) (hacc : (0xFF800000#32 : BitVec FTy.f32.bits) = FKind.maximumf.neutral .f32 hφ)
    (v : FVec Ideal ⟨3, ![512, E, E]⟩ .f32) (j : S1.Idx) (M : EReal) :
    (multiReduction .maximumf [1] S1
        (shapeCast S1x512
          (multiReduction .maximumf [1] S512
            (multiReduction .maximumf [2] ⟨2, ![512, E]⟩ (shapeCast ⟨3, ![512, E, E]⟩ v hc) 0xFF800000#32 h2 hφ hacc)
            0xFF800000#32 h1 hφ hacc) hc1)
        0xFF800000#32 h0 hφ hacc j : EReal) ≤ M
      ↔ ∀ (c : Fin 512) (r w : Fin E), (v (ix3 c r w) : EReal) ≤ M := by
  -- the row of 512 channel maxima, read at channel `k` through the cast that puts a unit axis in front
  have e0 : ∀ (X : FVec Ideal S512 .f32) (k : Fin 512), shapeCast S1x512 X hc1 (h0.lift j k) = X (ix1 k) := by
    intro X k
    apply shapeCast_apply
    rw [Shape.rowMajor_val_one, Shape.rowMajor_val_two]
    have hj : (j 0).val < 1 := (j 0).isLt
    show k.val = (j 0).val * 512 + k.val
    omega
  rw [maxRed_le_iff]
  constructor
  · intro H c r w
    have H1 := H c
    rw [e0 _ c, maxRed_le_iff] at H1
    have H2 := H1 r
    rw [lift21, maxRed_le_iff] at H2
    have H3 := H2 w
    rw [lift32, shapeCast_self] at H3
    exact H3
  · intro H (k : Fin 512)
    rw [e0 _ k, maxRed_le_iff]
    intro (r : Fin E)
    rw [lift21, maxRed_le_iff]
    intro (w : Fin E)
    rw [lift32, shapeCast_self]
    exact H k r w

/-- The last steps — the one maximum cast to `1 × 1`, read at its one position and spread over `1 × 1 × 1` — read the
    maximum itself. -/
theorem tail_eq {α : Type} (Y : S1.Idx → α) (hc2 : S1.ShapeCasts S1x1)
    (hp : ∀ a, (![0, 0] : Fin 2 → ℕ) a < S1x1.size a) (i : S1x1x1.Idx) :
    broadcast S1x1x1 (extractAt ![0, 0] (shapeCast S1x1 Y hc2) hp) i
      = Y (Shape.reshapeEquiv hc2 fun a => ⟨(![0, 0] : Fin 2 → ℕ) a, hp a⟩) := rfl

/-- The nested maximum followed by those last steps: below `M` exactly when every entry of its slice is. -/
theorem spread_le_iff {E : ℕ}
    (hc : (⟨3, ![512, E, E]⟩ : Shape).ShapeCasts ⟨3, ![512, E, E]⟩)
    (h2 : (⟨3, ![512, E, E]⟩ : Shape).Reduces [2] ⟨2, ![512, E]⟩)
    (h1 : (⟨2, ![512, E]⟩ : Shape).Reduces [1] S512)
    (hc1 : S512.ShapeCasts S1x512) (h0 : S1x512.Reduces [1] S1)
    (hφ : FKind.Formats .f32) (hacc : (0xFF800000#32 : BitVec FTy.f32.bits) = FKind.maximumf.neutral .f32 hφ)
    (hc2 : S1.ShapeCasts S1x1) (hp : ∀ a, (![0, 0] : Fin 2 → ℕ) a < S1x1.size a)
    (v : FVec Ideal ⟨3, ![512, E, E]⟩ .f32) (i : S1x1x1.Idx) (M : EReal) :
    (broadcast S1x1x1 (extractAt ![0, 0] (shapeCast S1x1
      (multiReduction .maximumf [1] S1
        (shapeCast S1x512
          (multiReduction .maximumf [1] S512
            (multiReduction .maximumf [2] ⟨2, ![512, E]⟩ (shapeCast ⟨3, ![512, E, E]⟩ v hc) 0xFF800000#32 h2 hφ hacc)
            0xFF800000#32 h1 hφ hacc) hc1)
        0xFF800000#32 h0 hφ hacc) hc2) hp) i : EReal) ≤ M
      ↔ ∀ (c : Fin 512) (r w : Fin E), (v (ix3 c r w) : EReal) ≤ M := by
  rw [tail_eq]
  exact core_le_iff hc h2 h1 hc1 h0 hφ hacc v _ M

/-! Each of the body's fourteen values is such a maximum, of its own slice: the whole map (`64`), the four quadrants (`32`), the nine
    squares (`21`). The fourth quadrant's, the third square's and the seventh square's are cut in two definitions; the last
    two squares' are written out inside the concatenation, in the words of the first square's. -/

theorem pay3_le_iff (v : Vec Ideal S512x64x64 .f32) (i : S1x1x1.Idx) (M : EReal) :
    (k0_pay3 (F := Ideal) v i : EReal) ≤ M ↔ ∀ (c : Fin 512) (r w : Fin 64), (v (ix3 c r w) : EReal) ≤ M := by
  unfold k0_pay3
  exact spread_le_iff (E := 64) _ _ _ _ _ _ _ _ _ v i M

theorem pay4_le_iff (v : Vec Ideal S512x32x32 .f32) (i : S1x1x1.Idx) (M : EReal) :
    (k0_pay4 (F := Ideal) v i : EReal) ≤ M ↔ ∀ (c : Fin 512) (r w : Fin 32), (v (ix3 c r w) : EReal) ≤ M := by
  unfold k0_pay4
  exact spread_le_iff (E := 32) _ _ _ _ _ _ _ _ _ v i M

theorem pay5_le_iff (v : Vec Ideal S512x32x32 .f32) (i : S1x1x1.Idx) (M : EReal) :
    (k0_pay5 (F := Ideal) v i : EReal) ≤ M ↔ ∀ (c : Fin 512) (r w : Fin 32), (v (ix3 c r w) : EReal) ≤ M := by
  unfold k0_pay5
  exact spread_le_iff (E := 32) _ _ _ _ _ _ _ _ _ v i M

theorem pay67_le_iff (v : Vec Ideal S512x32x32 .f32) (i : S1x1x1.Idx) (M : EReal) :
    (k0_pay7 (F := Ideal) (k0_pay6 v) i : EReal) ≤ M ↔ ∀ (c : Fin 512) (r w : Fin 32), (v (ix3 c r w) : EReal) ≤ M := by
  unfold k0_pay7 k0_pay6
  exact spread_le_iff (E := 32) _ _ _ _ _ _ _ _ _ v i M

theorem pay8_le_iff (v : Vec Ideal S512x32x32 .f32) (i : S1x1x1.Idx) (M : EReal) :
    (k0_pay8 (F := Ideal) v i : EReal) ≤ M ↔ ∀ (c : Fin 512) (r w : Fin 32), (v (ix3 c r w) : EReal) ≤ M := by
  unfold k0_pay8
  exact spread_le_iff (E := 32) _ _ _ _ _ _ _ _ _ v i M

theorem pay9_le_iff (v : Vec Ideal S512x21x21 .f32) (i : S1x1x1.Idx) (M : EReal) :
    (k0_pay9 (F := Ideal) v i : EReal) ≤ M ↔ ∀ (c : Fin 512) (r w : Fin 21), (v (ix3 c r w) : EReal) ≤ M := by
  unfold k0_pay9
  exact spread_le_iff (E := 21) _ _ _ _ _ _ _ _ _ v i M

theorem pay10_le_iff (v : Vec Ideal S512x21x21 .f32) (i : S1x1x1.Idx) (M : EReal) :
    (k0_pay10 (F := Ideal) v i : EReal) ≤ M ↔ ∀ (c : Fin 512) (r w : Fin 21), (v (ix3 c r w) : EReal) ≤ M := by
  unfold k0_pay10
  exact spread_le_iff (E := 21) _ _ _ _ _ _ _ _ _ v i M

theorem pay1112_le_iff (v : Vec Ideal S512x21x21 .f32) (i : S1x1x1.Idx) (M : EReal) :
    (k0_pay12 (F := Ideal) (k0_pay11 v) i : EReal) ≤ M ↔ ∀ (c : Fin 512) (r w : Fin 21), (v (ix3 c r w) : EReal) ≤ M := by
  unfold k0_pay12 k0_pay11
  exact spread_le_iff (E := 21) _ _ _ _ _ _ _ _ _ v i M

theorem pay13_le_iff (v : Vec Ideal S512x21x21 .f32) (i : S1x1x1.Idx) (M : EReal) :
    (k0_pay13 (F := Ideal) v i : EReal) ≤ M ↔ ∀ (c : Fin 512) (r w : Fin 21), (v (ix3 c r w) : EReal) ≤ M := by
  unfold k0_pay13
  exact spread_le_iff (E := 21) _ _ _ _ _ _ _ _ _ v i M

theorem pay14_le_iff (v : Vec Ideal S512x21x21 .f32) (i : S1x1x1.Idx) (M : EReal) :
    (k0_pay14 (F := Ideal) v i : EReal) ≤ M ↔ ∀ (c : Fin 512) (r w : Fin 21), (v (ix3 c r w) : EReal) ≤ M := by
  unfold k0_pay14
  exact spread_le_iff (E := 21) _ _ _ _ _ _ _ _ _ v i M

theorem pay15_le_iff (v : Vec Ideal S512x21x21 .f32) (i : S1x1x1.Idx) (M : EReal) :
    (k0_pay15 (F := Ideal) v i : EReal) ≤ M ↔ ∀ (c : Fin 512) (r w : Fin 21), (v (ix3 c r w) : EReal) ≤ M := by
  unfold k0_pay15
  exact spread_le_iff (E := 21) _ _ _ _ _ _ _ _ _ v i M

theorem pay16_le_iff (v : Vec Ideal S512x21x21 .f32) (i : S1x1x1.Idx) (M : EReal) :
    (k0_pay7 (F := Ideal) (k0_pay16 v) i : EReal) ≤ M ↔ ∀ (c : Fin 512) (r w : Fin 21), (v (ix3 c r w) : EReal) ≤ M := by
  unfold k0_pay7 k0_pay16
  exact spread_le_iff (E := 21) _ _ _ _ _ _ _ _ _ v i M

/-- Fourteen `1 × 1 × 1` pieces lined up along the last axis, read at position `j` of that axis: piece `j`. -/
theorem concat14_apply {α : Type} (p0 p1 p2 p3 p4 p5 p6 p7 p8 p9 p10 p11 p12 p13 : S1x1x1.Idx → α)
    (h : Shape.Concatenates (([⟨S1x1x1, p0⟩, ⟨S1x1x1, p1⟩, ⟨S1x1x1, p2⟩, ⟨S1x1x1, p3⟩, ⟨S1x1x1, p4⟩, ⟨S1x1x1, p5⟩, ⟨S1x1x1, p6⟩, ⟨S1x1x1, p7⟩, ⟨S1x1x1, p8⟩, ⟨S1x1x1, p9⟩, ⟨S1x1x1, p10⟩, ⟨S1x1x1, p11⟩, ⟨S1x1x1, p12⟩, ⟨S1x1x1, p13⟩] : List ((s : Shape) × (s.Idx → α))).map (·.1)) S1x1x14 2)
    (j : Fin 14) :
    concatenate S1x1x14 2 [⟨S1x1x1, p0⟩, ⟨S1x1x1, p1⟩, ⟨S1x1x1, p2⟩, ⟨S1x1x1, p3⟩, ⟨S1x1x1, p4⟩, ⟨S1x1x1, p5⟩, ⟨S1x1x1, p6⟩, ⟨S1x1x1, p7⟩, ⟨S1x1x1, p8⟩, ⟨S1x1x1, p9⟩, ⟨S1x1x1, p10⟩, ⟨S1x1x1, p11⟩, ⟨S1x1x1, p12⟩, ⟨S1x1x1, p13⟩] h (ix3 0 0 j)
      = (![p0, p1, p2, p3, p4, p5, p6, p7, p8, p9, p10, p11, p12, p13] : Fin 14 → S1x1x1.Idx → α) j (ix3 0 0 0) :=
  concatenate_ofFn_unit_apply (t := S1x1x14) (s₁ := S1x1x1) (2 : Fin 3) ![p0, p1, p2, p3, p4, p5, p6, p7, p8, p9, p10, p11, p12, p13] h rfl rfl (ix3 0 0 j) j rfl (ix3 0 0 0)
    (by intro b hb; fin_cases b <;> first | rfl | exact absurd rfl hb)

/-- The fourteen pieces of the vector of maxima, each the nested maximum of its own loaded slice. -/
noncomputable def piece (v0 : Vec Ideal S512x64x64 .f32) (v9 v18 v27 v36 : Vec Ideal S512x32x32 .f32)
    (v45 v54 v63 v72 v81 v90 v99 v108 v117 : Vec Ideal S512x21x21 .f32) : Fin 14 → FVec Ideal S1x1x1 .f32 :=
  ![k0_pay3 v0, k0_pay4 v9, k0_pay5 v18, k0_pay7 (k0_pay6 v27), k0_pay8 v36, k0_pay9 v45, k0_pay10 v54, k0_pay12 (k0_pay11 v63), k0_pay13 v72, k0_pay14 v81, k0_pay15 v90, k0_pay7 (k0_pay16 v99), k0_pay9 v108, k0_pay9 v117]

/-- The vector of maxima read at `(0, 0, j)` is piece `j`. -/
theorem newv_apply (v0 : Vec Ideal S512x64x64 .f32) (v9 v18 v27 v36 : Vec Ideal S512x32x32 .f32)
    (v45 v54 v63 v72 v81 v90 v99 v108 v117 : Vec Ideal S512x21x21 .f32) (j : Fin 14) :
    Pool.newv (F := Ideal) v0 v9 v18 v27 v36 v45 v54 v63 v72 v81 v90 v99 v108 v117 (ix3 0 0 j)
      = piece v0 v9 v18 v27 v36 v45 v54 v63 v72 v81 v90 v99 v108 v117 j (ix3 0 0 0) := by
  unfold Pool.newv k0_pay1
  dsimp only
  rw [concat14_apply]
  rfl

/-! Entry `n` of a vector of fourteen, for each `n`. -/
theorem vec14_0 {β : Type} (p0 p1 p2 p3 p4 p5 p6 p7 p8 p9 p10 p11 p12 p13 : β) (h : 0 < 14) : (![p0, p1, p2, p3, p4, p5, p6, p7, p8, p9, p10, p11, p12, p13] : Fin 14 → β) ⟨0, h⟩ = p0 := rfl
theorem vec14_1 {β : Type} (p0 p1 p2 p3 p4 p5 p6 p7 p8 p9 p10 p11 p12 p13 : β) (h : 1 < 14) : (![p0, p1, p2, p3, p4, p5, p6, p7, p8, p9, p10, p11, p12, p13] : Fin 14 → β) ⟨1, h⟩ = p1 := rfl
theorem vec14_2 {β : Type} (p0 p1 p2 p3 p4 p5 p6 p7 p8 p9 p10 p11 p12 p13 : β) (h : 2 < 14) : (![p0, p1, p2, p3, p4, p5, p6, p7, p8, p9, p10, p11, p12, p13] : Fin 14 → β) ⟨2, h⟩ = p2 := rfl
theorem vec14_3 {β : Type} (p0 p1 p2 p3 p4 p5 p6 p7 p8 p9 p10 p11 p12 p13 : β) (h : 3 < 14) : (![p0, p1, p2, p3, p4, p5, p6, p7, p8, p9, p10, p11, p12, p13] : Fin 14 → β) ⟨3, h⟩ = p3 := rfl
theorem vec14_4 {β : Type} (p0 p1 p2 p3 p4 p5 p6 p7 p8 p9 p10 p11 p12 p13 : β) (h : 4 < 14) : (![p0, p1, p2, p3, p4, p5, p6, p7, p8, p9, p10, p11, p12, p13] : Fin 14 → β) ⟨4, h⟩ = p4 := rfl
theorem vec14_5 {β : Type} (p0 p1 p2 p3 p4 p5 p6 p7 p8 p9 p10 p11 p12 p13 : β) (h : 5 < 14) : (![p0, p1, p2, p3, p4, p5, p6, p7, p8, p9, p10, p11, p12, p13] : Fin 14 → β) ⟨5, h⟩ = p5 := rfl
theorem vec14_6 {β : Type} (p0 p1 p2 p3 p4 p5 p6 p7 p8 p9 p10 p11 p12 p13 : β) (h : 6 < 14) : (![p0, p1, p2, p3, p4, p5, p6, p7, p8, p9, p10, p11, p12, p13] : Fin 14 → β) ⟨6, h⟩ = p6 := rfl
theorem vec14_7 {β : Type} (p0 p1 p2 p3 p4 p5 p6 p7 p8 p9 p10 p11 p12 p13 : β) (h : 7 < 14) : (![p0, p1, p2, p3, p4, p5, p6, p7, p8, p9, p10, p11, p12, p13] : Fin 14 → β) ⟨7, h⟩ = p7 := rfl
theorem vec14_8 {β : Type} (p0 p1 p2 p3 p4 p5 p6 p7 p8 p9 p10 p11 p12 p13 : β) (h : 8 < 14) : (![p0, p1, p2, p3, p4, p5, p6, p7, p8, p9, p10, p11, p12, p13] : Fin 14 → β) ⟨8, h⟩ = p8 := rfl
theorem vec14_9 {β : Type} (p0 p1 p2 p3 p4 p5 p6 p7 p8 p9 p10 p11 p12 p13 : β) (h : 9 < 14) : (![p0, p1, p2, p3, p4, p5, p6, p7, p8, p9, p10, p11, p12, p13] : Fin 14 → β) ⟨9, h⟩ = p9 := rfl
theorem vec14_10 {β : Type} (p0 p1 p2 p3 p4 p5 p6 p7 p8 p9 p10 p11 p12 p13 : β) (h : 10 < 14) : (![p0, p1, p2, p3, p4, p5, p6, p7, p8, p9, p10, p11, p12, p13] : Fin 14 → β) ⟨10, h⟩ = p10 := rfl
theorem vec14_11 {β : Type} (p0 p1 p2 p3 p4 p5 p6 p7 p8 p9 p10 p11 p12 p13 : β) (h : 11 < 14) : (![p0, p1, p2, p3, p4, p5, p6, p7, p8, p9, p10, p11, p12, p13] : Fin 14 → β) ⟨11, h⟩ = p11 := rfl
theorem vec14_12 {β : Type} (p0 p1 p2 p3 p4 p5 p6 p7 p8 p9 p10 p11 p12 p13 : β) (h : 12 < 14) : (![p0, p1, p2, p3, p4, p5, p6, p7, p8, p9, p10, p11, p12, p13] : Fin 14 → β) ⟨12, h⟩ = p12 := rfl
theorem vec14_13 {β : Type} (p0 p1 p2 p3 p4 p5 p6 p7 p8 p9 p10 p11 p12 p13 : β) (h : 13 < 14) : (![p0, p1, p2, p3, p4, p5, p6, p7, p8, p9, p10, p11, p12, p13] : Fin 14 → β) ⟨13, h⟩ = p13 := rfl

/-- Two rank-3 indices with the same coordinates, as numbers, are equal. -/
theorem ix3_congr {n0 n1 n2 : ℕ} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl

/-- Every entry of the `E × E` slice at `(ho, wo)` is below `M` exactly when every entry of the block whose pixel lies in
    that square is. -/
theorem slice_le_iff (E ho wo : ℕ) (hh : ho + E ≤ 64) (hw : wo + E ≤ 64) (x : Vec Ideal S512x64x64 .f32) (M : EReal) :
    (∀ (c : Fin 512) (r w : Fin E), (Pool.slice E ho wo hh hw x (ix3 c r w) : EReal) ≤ M)
      ↔ ∀ (c : Fin 512) (h w : Fin 64), (ho ≤ h.val ∧ h.val < ho + E ∧ wo ≤ w.val ∧ w.val < wo + E) →
          (x (ix3 c h w) : EReal) ≤ M := by
  constructor
  · rintro H c h w ⟨h1, h2, h3, h4⟩
    have e : Pool.slice E ho wo hh hw x (ix3 c ⟨h.val - ho, by omega⟩ ⟨w.val - wo, by omega⟩) = x (ix3 c h w) :=
      congrArg x (ix3_congr rfl (by show ho + (h.val - ho) = h.val; omega) (by show wo + (w.val - wo) = w.val; omega))
    rw [← e]
    exact H c _ _
  · intro H c r w
    exact H c ⟨ho + r.val, by have := r.isLt; omega⟩ ⟨wo + w.val, by have := w.isLt; omega⟩
      ⟨Nat.le_add_right _ _, Nat.add_lt_add_left r.isLt _, Nat.le_add_right _ _, Nat.add_lt_add_left w.isLt _⟩

/-- **The fourteen maxima of a block have the upper bounds of the block's entries in their regions**: the maximum the body
    computes for region `j` is below `M` exactly when every entry of the block, over all channels, whose pixel lies in
    region `j` is below `M`. -/
theorem newvS_le_iff (x : Vec Ideal S512x64x64 .f32) (j : Fin 14) (M : EReal) :
    (Pool.newvS (F := Ideal) x (ix3 (n0 := 1) (n1 := 1) (n2 := 14) 0 0 j) : EReal) ≤ M
      ↔ ∀ (c : Fin 512) (h w : Fin 64), Cert.Spp.InRegion j h.val w.val → (x (ix3 c h w) : EReal) ≤ M := by
  unfold Pool.newvS
  rw [newv_apply]
  unfold piece
  match j with
  | ⟨0, _⟩ => rw [vec14_0]; exact (pay3_le_iff _ _ M).trans (slice_le_iff 64 0 0 _ _ x M)
  | ⟨1, _⟩ => rw [vec14_1]; exact (pay4_le_iff _ _ M).trans (slice_le_iff 32 0 0 _ _ x M)
  | ⟨2, _⟩ => rw [vec14_2]; exact (pay5_le_iff _ _ M).trans (slice_le_iff 32 0 32 _ _ x M)
  | ⟨3, _⟩ => rw [vec14_3]; exact (pay67_le_iff _ _ M).trans (slice_le_iff 32 32 0 _ _ x M)
  | ⟨4, _⟩ => rw [vec14_4]; exact (pay8_le_iff _ _ M).trans (slice_le_iff 32 32 32 _ _ x M)
  | ⟨5, _⟩ => rw [vec14_5]; exact (pay9_le_iff _ _ M).trans (slice_le_iff 21 0 0 _ _ x M)
  | ⟨6, _⟩ => rw [vec14_6]; exact (pay10_le_iff _ _ M).trans (slice_le_iff 21 0 21 _ _ x M)
  | ⟨7, _⟩ => rw [vec14_7]; exact (pay1112_le_iff _ _ M).trans (slice_le_iff 21 0 42 _ _ x M)
  | ⟨8, _⟩ => rw [vec14_8]; exact (pay13_le_iff _ _ M).trans (slice_le_iff 21 21 0 _ _ x M)
  | ⟨9, _⟩ => rw [vec14_9]; exact (pay14_le_iff _ _ M).trans (slice_le_iff 21 21 21 _ _ x M)
  | ⟨10, _⟩ => rw [vec14_10]; exact (pay15_le_iff _ _ M).trans (slice_le_iff 21 21 42 _ _ x M)
  | ⟨11, _⟩ => rw [vec14_11]; exact (pay16_le_iff _ _ M).trans (slice_le_iff 21 42 0 _ _ x M)
  | ⟨12, _⟩ => rw [vec14_12]; exact (pay9_le_iff _ _ M).trans (slice_le_iff 21 42 21 _ _ x M)
  | ⟨13, _⟩ => rw [vec14_13]; exact (pay9_le_iff _ _ M).trans (slice_le_iff 21 42 42 _ _ x M)
  | ⟨n + 14, h⟩ => exact absurd h (by omega)

end Cert.KernelIdeal.PoolMax
-- ==== Proof.KI.BlockRead.lean ====
/-
  Where the kernel's input block comes from.  @main reshapes the argument f32[32, 512, 64, 64] to [16384, 64, 64] (row
  r = 512·b + c) and the pipeline's input window at grid point t is rows 512·t … 512·t + 511 of that array: exactly batch
  entry b = t with all its 512 channels.  So entry (c, h, w) of the block at point t is entry (t, c, h, w) of the argument.
-/
import proofs.«109256_j90254442758174_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Glue

open Idealize.ShloMosaic Idealize.ShloMosaic.TcCoe Idealize.ShloMosaic.ValueIdx Idealize.ShloMosaic.StableHlo
open Idealize.SL Idealize.SL.Sem
open Cert.KernelIdeal Cert.KernelIdeal.Gen

variable {F : FTy → Type} [FloatOps F]
variable (m : (ℓ : Loc nD τ sig) → Buf (Elt F) ℓ)

/-- The argument array as launched, at its literal type. -/
abbrev arg (c : Dev nD) : Vec F S32x512x64x64 .f32 := m ((c : Thread nD τ).loc main_arg0)

/-- The input block at grid point `t`, at its literal type. -/
abbrev xblk (c : Dev nD) (t : Fin cfg0.N) : Vec F S512x64x64 .f32 := iblk m c 0 t

/-- The input window's block index at point `t` is `(t, 0, 0)`: decided over the 32 points. -/
theorem idx_in : ∀ t : Fin cfg0.N, win0_0.index t (0 : Fin 3) = t.val ∧ win0_0.index t (1 : Fin 3) = 0
    ∧ win0_0.index t (2 : Fin 3) = 0 :=
  (by decide +kernel : ∀ t : Fin grid0.N, _)

/-- The array the region reads is the argument reshaped. -/
theorem V_main_v0 (c : Dev nD) :
    (V m c main_v0 : S16384x64x64.Idx → Elt F .f32)
      = shapeCast S16384x64x64 (arg m c) shapeCasts_S32x512x64x64_S16384x64x64 := by
  show StableHlo.after hostOps0 (fun b => m (c, b)) (Proc.devRef .tc main_v0) = _
  after_results
  rfl

/-- Entry `(ch, h, w)` of the block at point `t` is entry `(t, ch, h, w)` of the argument. -/
theorem xblk_apply (c : Dev nD) (t : Fin cfg0.N) (ch : Fin 512) (h w : Fin 64) :
    xblk m c t (ix3 ch h w)
      = arg m c (ix4 (n0 := 32) ⟨t.val, lt_of_lt_of_eq t.isLt N_0⟩ ch h w) := by
  obtain ⟨e0, e1, e2⟩ := idx_in t
  have ht : t.val < 32 := lt_of_lt_of_eq t.isLt N_0
  show V m c main_v0 (((cfg0.win 0).blk t).view.emb (ix3 ch h w)) = _
  rw [V_main_v0]
  generalize arg m c = a
  refine shapeCast_apply a shapeCasts_S32x512x64x64_S16384x64x64 _ _ ?_
  rw [Shape.rowMajor_val_four, Shape.rowMajor_val_three]
  show ((t.val * 512 + ch.val) * 64 + h.val) * 64 + w.val
    = ((win0_0.index t (0 : Fin 3) * 512 + 1 * ch.val) * 64 + (win0_0.index t (1 : Fin 3) * 64 + 1 * h.val)) * 64
      + (win0_0.index t (2 : Fin 3) * 64 + 1 * w.val)
  rw [e0, e1, e2]
  omega

end Cert.KernelIdeal.Glue

end
-- ==== Proof.KI.Tail.lean ====
/-
  After the region @main takes, on the host, the maximum over the two groups of the [2, 1, 14] array the kernel wrote:
  result[0, j] = max(−∞, out[0, 0, j], out[1, 0, j]).  Read off the frame run's post, for any proof data: the array the
  host operation reads is what the run's write-backs left.
-/
import proofs.«109256_j90254442758174_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Glue

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The program's result buffer after the host operations that follow the region: the host's maximum over the
    leading axis of the kernel's output array as the run left it. -/
theorem tail_main_v2 (dats : (p : Fin 1) → (c : Dev nD) → Dat τ (Elt F) Unit ℕ (UR sig nD τ) ℕ (cfgs p) c) (c : Dev nD) :
    (Pipeline.afterTail₀ cfgs dats 0 (V0 m) [hostOps1] c main_v2 : S1x14.Idx → Elt F .f32)
      = Host.reduce FloatOps.maximumf ((dats 0 c).arrAt 1 cfg0.N : S2x1x14.Idx → Elt F .f32)
          (constant S_ .f32 0xFF800000#32) reducesTo_S2x1x14_S1x14_d0 h_S_ := by
  unfold Pipeline.afterTail₀
  show StableHlo.after hostOps1 _ (Proc.devRef .tc main_v2) = _
  after_results
  exact congrArg (fun a : S2x1x14.Idx → Elt F .f32 =>
      Host.reduce FloatOps.maximumf a (constant S_ .f32 0xFF800000#32) reducesTo_S2x1x14_S1x14_d0 h_S_)
    (Pipeline.withArrays_arr spec0 launch0.win.arr_inj c (V0 m c) (fun w => (dats 0 c).arrAt w (cfgs 0).N) 1)

/-- The word `0xFF800000` is −∞, the least extended real. -/
theorem neg_inf_eq_bot : (FloatOps.ofBits (F := Ideal) .f32 0xFF800000#32 : EReal) = ⊥ := by
  show Ideal.ofBits .f32 0xFF800000#32 = ⊥
  simp [Ideal.ofBits, Ideal.ieee]

/-- The host's maximum over the two groups has exactly the upper bounds of the two groups' entries. -/
theorem hostmax_le_iff (a : S2x1x14.Idx → Elt Ideal .f32) (j : Fin 14) (M : EReal) :
    (Host.reduce (FloatOps.maximumf (F := Ideal) (φ := .f32)) a (constant (F := Ideal) S_ .f32 0xFF800000#32)
        reducesTo_S2x1x14_S1x14_d0 h_S_ (ix2 (n0 := 1) (n1 := 14) 0 j) : EReal) ≤ M
      ↔ ∀ g : Fin 2, (a (ix3 (n0 := 2) (n1 := 1) (n2 := 14) g 0 j) : EReal) ≤ M := by
  have hr : S2x1x14.Reduces [(0 : Fin 3)] S1x14 := by decide
  rw [Host.reduce_eq_fold_single (FloatOps.maximumf (F := Ideal) (φ := .f32)) a _ reducesTo_S2x1x14_S1x14_d0 hr h_S_]
  have hl : ∀ g : Fin 2, hr.lift (ix2 (n0 := 1) (n1 := 14) 0 j) g = ix3 (n0 := 2) (n1 := 1) (n2 := 14) g 0 j := fun g => by
    funext c; apply Fin.ext
    match c with
    | ⟨0, _⟩ => rfl
    | ⟨1, _⟩ => rfl
    | ⟨2, _⟩ => rfl
  show Finset.fold max (FloatOps.ofBits (F := Ideal) .f32 0xFF800000#32 : EReal)
      (fun g : Fin 2 => (a (hr.lift (ix2 (n0 := 1) (n1 := 14) 0 j) g) : EReal)) Finset.univ ≤ M ↔ _
  rw [Finset.fold_max_le, neg_inf_eq_bot]
  constructor
  · intro h g; rw [← hl g]; exact h.2 g (Finset.mem_univ g)
  · intro h; exact ⟨bot_le, fun g _ => by rw [hl g]; exact h g⟩

end Cert.KernelIdeal.Glue

end
-- ==== Proof.KI.Final.lean ====
/-
  The kernel's output array after the run.  The output window's block at grid point t is row t / 16 of the [2, 1, 14]
  array, and the pipeline writes the staging buffer back only at the last point of each group (t = 15 and t = 31).  So
  entry (g, 0, j) of the array after the run is entry (0, 0, j) of what the body left at point 16·g + 15.
-/
import proofs.«109256_j90254442758174_1_alg».proof.Proof.Gen.KernelIdeal.Frame
import Idealize.ShloMosaic.Lib.Pipeline.Value
import Idealize.ShloMosaic.Lib.ValueIdx

set_option maxRecDepth 16384

noncomputable section

namespace Cert.KernelIdeal.Glue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]

/-- The output window's block index at point `t` is `(t / 16, 0, 0)`: decided over the 32 points. -/
theorem idx_out : ∀ t : Fin cfg0.N, win0_1.index t (0 : Fin 3) = t.val / 16 ∧ win0_1.index t (1 : Fin 3) = 0
    ∧ win0_1.index t (2 : Fin 3) = 0 :=
  (by decide +kernel : ∀ t : Fin grid0.N, _)

theorem final_apply {c : Dev nD} (dat : Dat τ (Elt F) Unit ℕ (UR sig nD τ) ℕ cfg0 c)
    (outs : (n : ℕ) → n < cfg0.N → Vec F S1x1x14 .f32)
    (hafter : ∀ t : Fin cfg0.N, dat.after 1 t = outs t.val t.isLt) (g : Fin 2) (j : Fin 14) :
    (dat.arrAt 1 cfg0.N : S2x1x14.Idx → Elt F .f32) (ix3 (n0 := 2) (n1 := 1) (n2 := 14) g 0 j)
      = outs (16 * g.val + 15) (by rw [show cfg0.N = 32 from N_0]; omega) (ix3 (n0 := 1) (n1 := 1) (n2 := 14) 0 0 j) := by
  have hN : cfg0.N = 32 := N_0
  let G : S2x1x14.Idx → Elt F .f32 := fun i =>
    outs (16 * (i 0).val + 15) (by rw [hN]; have : (i 0).val < 2 := (i 0).isLt; omega)
      (ix3 (n0 := 1) (n1 := 1) (n2 := 14) 0 0 ⟨(i 2).val, (i 2).isLt⟩)
  have hG : ∀ t, (cfg0.win 1).flush t = true → dat.flushed 1 t = ((cfg0.win 1).blk t).view.read (Elt F) G := by
    intro t hf
    have h15 : t.val % 16 = 15 := (flush0_1 t).mp hf
    obtain ⟨e0, e1, e2⟩ := idx_out t
    show (cfg0.win 1).cut (grid0.coords t) (dat.after 1 t) = _
    rw [hafter]
    funext y
    have hy0 : (y 0).val = 0 := by have : (y 0).val < 1 := (y 0).isLt; omega
    have hy1 : (y 1).val = 0 := by have : (y 1).val < 1 := (y 1).isLt; omega
    have key : ∀ (n n' : ℕ) (hn : n < cfg0.N) (hn' : n' < cfg0.N) (a a' : S1x1x14.Idx), n = n' → a = a' →
        outs n hn a = outs n' hn' a' := by intros; subst_vars; rfl
    show outs t.val t.isLt y = G (((cfg0.win 1).blk t).view.emb y)
    refine key _ _ _ _ _ _ ?_ ?_
    · show t.val = 16 * (win0_1.index t (0 : Fin 3) * 1 + 1 * (y 0).val) + 15
      rw [e0]; omega
    · funext a; apply Fin.ext
      match a with
      | ⟨0, _⟩ => exact hy0
      | ⟨1, _⟩ => exact hy1
      | ⟨2, _⟩ => show (y 2).val = win0_1.index t (2 : Fin 3) * 14 + 1 * (y 2).val; rw [e2]; omega
  have ht : 16 * g.val + 15 < cfg0.N := by rw [hN]; omega
  have hfl : (cfg0.win 1).flush ⟨16 * g.val + 15, ht⟩ = true :=
    (flush0_1 _).mpr (by show (16 * g.val + 15) % 16 = 15; omega)
  obtain ⟨e0, e1, e2⟩ := idx_out ⟨16 * g.val + 15, ht⟩
  have hq : (16 * g.val + 15) / 16 = g.val := by omega
  have hmem : (ix3 (n0 := 2) (n1 := 1) (n2 := 14) g 0 j : S2x1x14.Idx) ∈ ((cfg0.win 1).blk ⟨16 * g.val + 15, ht⟩).view.set := by
    show _ ∈ ((View.whole main_v1).slice (win0_1.rect ⟨16 * g.val + 15, ht⟩)).set
    rw [View.set_slice_whole, Rect.mem_set_unit]
    intro a
    match a with
    | ⟨0, _⟩ =>
      show win0_1.index ⟨16 * g.val + 15, ht⟩ (0 : Fin 3) * 1 ≤ g.val ∧ g.val < win0_1.index ⟨16 * g.val + 15, ht⟩ (0 : Fin 3) * 1 + 1
      rw [e0]; show (16 * g.val + 15) / 16 * 1 ≤ g.val ∧ g.val < (16 * g.val + 15) / 16 * 1 + 1; omega
    | ⟨1, _⟩ =>
      show win0_1.index ⟨16 * g.val + 15, ht⟩ (1 : Fin 3) * 1 ≤ 0 ∧ 0 < win0_1.index ⟨16 * g.val + 15, ht⟩ (1 : Fin 3) * 1 + 1
      rw [e1]; omega
    | ⟨2, _⟩ =>
      show win0_1.index ⟨16 * g.val + 15, ht⟩ (2 : Fin 3) * 14 ≤ j.val ∧ j.val < win0_1.index ⟨16 * g.val + 15, ht⟩ (2 : Fin 3) * 14 + 14
      rw [e2]; have := j.isLt; omega
  exact dat.arrAt_apply_of_mem 1 G hG cfg0.N ⟨16 * g.val + 15, ht⟩ _ ht hfl hmem

end Cert.KernelIdeal.Glue

end
-- ==== Proof.RunMax.lean ====
/-
  A running maximum over a run of consecutive points.  A point-indexed quantity that RESTARTS at the multiples of J (there
  it is the point's own fresh term) and at every other point is the maximum of its predecessor and the point's fresh term
  has, at point J·q + k with k < J, exactly the upper bounds common to the fresh terms of points J·q, …, J·q + k.
-/
import Mathlib.Data.EReal.Basic
import Mathlib.Order.Lattice

namespace Cert.Spp

/-- The quantity does not depend on the proof that its point is in range. -/
theorem dep_congr {α : Type} {N : ℕ} (o : (n : ℕ) → n < N → α) {n n' : ℕ} (e : n = n') (hn : n < N) (hn' : n' < N) :
    o n hn = o n' hn' := by subst e; rfl

theorem runmax_le_iff {N J : ℕ} (o nv : (n : ℕ) → n < N → EReal)
    (hA : ∀ n (hn : n < N), n % J = 0 → o n hn = nv n hn)
    (hB : ∀ n (hn : n < N), ¬ n % J = 0 → o n hn = max (o (n - 1) (Nat.lt_of_le_of_lt (Nat.sub_le _ _) hn)) (nv n hn))
    (q : ℕ) (M : EReal) :
    ∀ (k : ℕ) (hk : k < J) (h : J * q + k < N),
      o (J * q + k) h ≤ M ↔ ∀ (k' : ℕ) (hk' : k' ≤ k), nv (J * q + k') (by omega) ≤ M
  | 0, hk, h => by
    rw [hA _ h (by simp)]
    constructor
    · intro hM k' hk'
      obtain rfl : k' = 0 := by omega
      exact hM
    · intro hM; exact hM 0 le_rfl
  | k + 1, hk, h => by
    have hmod : ¬ (J * q + (k + 1)) % J = 0 := by
      rw [Nat.mul_add_mod]; rw [Nat.mod_eq_of_lt hk]; omega
    rw [hB _ h hmod, max_le_iff,
      dep_congr o (show J * q + (k + 1) - 1 = J * q + k by omega) _ (by omega),
      runmax_le_iff o nv hA hB q M k (by omega) (by omega)]
    constructor
    · rintro ⟨h1, h2⟩ k' hk'
      rcases Nat.lt_or_ge k' (k + 1) with hlt | hge
      · exact h1 k' (by omega)
      · obtain rfl : k' = k + 1 := by omega
        exact h2
    · intro hM
      exact ⟨fun k' hk' => hM k' (by omega), hM (k + 1) le_rfl⟩

end Cert.Spp
-- ==== Proof.KI.Value.lean ====
/-
  The kernel's result as the run leaves it, and its upper bounds.  The frame run puts in the result buffer the host's
  maximum over the two groups of the output array; entry (g, 0, j) of that array is what the body left at the last point of
  group g; what the body leaves at point 16·g + k is the running maximum of the fourteen block maxima of points 16·g … 16·g + k
  (the body restarts it at k = 0); and the block at point t is batch entry t of the argument.  Put together: entry (0, j) of
  the result has exactly the upper bounds of the argument's entries over all batch entries, all channels and region j's pixels.
-/
import proofs.«109256_j90254442758174_1_alg».proof.Proof.KI.Body
import proofs.«109256_j90254442758174_1_alg».proof.Proof.KI.Pieces
import proofs.«109256_j90254442758174_1_alg».proof.Proof.KI.PoolMax
import proofs.«109256_j90254442758174_1_alg».proof.Proof.KI.BlockRead
import proofs.«109256_j90254442758174_1_alg».proof.Proof.KI.Tail
import proofs.«109256_j90254442758174_1_alg».proof.Proof.KI.Final
import proofs.«109256_j90254442758174_1_alg».proof.Proof.RunMax
import proofs.«109256_j90254442758174_1_alg».proof.Proof.Spec

set_option maxRecDepth 16384

noncomputable section

namespace Cert.KernelIdeal.KVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand Cert.KernelIdeal.Glue Cert.Spp

variable (m : (ℓ : Loc nD τ sig) → Buf (Elt Ideal) ℓ) (ρ : Dev nD → PrngReg)

/-- The program's result buffer after the run. -/
def kres (c : Dev nD) : S1x14.Idx → Elt Ideal .f32 :=
  Pipeline.afterTail₀ cfgs (dats m) 0 (V0 m) [hostOps1] c main_v2

/-- Entry `j` of what the body leaves at the last point of group `g` is bounded by `M` iff entry `j` of the block
    maxima of each of the group's sixteen points is. -/
theorem outs_le_iff (c : Dev nD) (g : Fin 2) (j : Fin 14) (M : EReal) :
    (outsAt0 m c (16 * g.val + 15) (by rw [show cfg0.N = 32 from N_0]; omega) (ix3 (n0 := 1) (n1 := 1) (n2 := 14) 0 0 j) : EReal) ≤ M
      ↔ ∀ (k : ℕ) (hk : k ≤ 15),
          (Pool.newvS (xblk m c ⟨16 * g.val + k, by rw [show cfg0.N = 32 from N_0]; omega⟩) (ix3 (n0 := 1) (n1 := 1) (n2 := 14) 0 0 j) : EReal) ≤ M := by
  have hN : cfg0.N = 32 := N_0
  refine runmax_le_iff (N := cfg0.N) (J := 16)
    (fun n hn => (outsAt0 m c n hn (ix3 (n0 := 1) (n1 := 1) (n2 := 14) 0 0 j) : EReal))
    (fun n hn => (Pool.newvS (xblk m c ⟨n, hn⟩) (ix3 (n0 := 1) (n1 := 1) (n2 := 14) 0 0 j) : EReal))
    (fun n hn h0 => ?_) (fun n hn h0 => ?_) g.val M 15 (by omega) (by rw [hN]; omega)
  · show (outsAt0 m c (⟨n, hn⟩ : Fin cfg0.N).val (⟨n, hn⟩ : Fin cfg0.N).isLt _ : EReal) = _
    rw [outsAt0_A m c ⟨n, hn⟩ h0, out0_A_1_eq]
  · show (outsAt0 m c (⟨n, hn⟩ : Fin cfg0.N).val (⟨n, hn⟩ : Fin cfg0.N).isLt _ : EReal) = _
    rw [outsAt0_B m c ⟨n, hn⟩ h0, out0_B_1_eq]
    rfl

/-- THE KERNEL'S VALUE: entry `(0, j)` of the result is bounded by `M` iff every entry of the argument over region `j` is. -/
theorem kres_le_iff (c : Dev nD) (j : Fin 14) (M : EReal) :
    (kres m c (ix2 (n0 := 1) (n1 := 14) 0 j) : EReal) ≤ M
      ↔ ∀ (b : Fin 32) (ch : Fin 512) (h w : Fin 64), InRegion j h.val w.val → (arg m c (ix4 b ch h w) : EReal) ≤ M := by
  have hN : cfg0.N = 32 := N_0
  unfold kres
  rw [tail_main_v2, hostmax_le_iff]
  constructor
  · intro H b ch h w hr
    have hb : b.val < 32 := b.isLt
    have h1 := H ⟨b.val / 16, by omega⟩
    rw [final_apply (dats m 0 c) (outsAt0 m c) (fun t => after0_1 m c t), outs_le_iff] at h1
    have h2 := h1 (b.val % 16) (by omega)
    rw [PoolMax.newvS_le_iff] at h2
    have h3 := h2 ch h w hr
    rw [xblk_apply] at h3
    have eb : (⟨16 * (b.val / 16) + b.val % 16, by omega⟩ : Fin 32) = b := Fin.ext (by show 16 * (b.val / 16) + b.val % 16 = b.val; omega)
    simpa [eb] using h3
  · intro H g
    rw [final_apply (dats m 0 c) (outsAt0 m c) (fun t => after0_1 m c t), outs_le_iff]
    intro k hk
    rw [PoolMax.newvS_le_iff]
    intro ch h w hr
    rw [xblk_apply]
    exact H ⟨16 * g.val + k, by have := g.isLt; omega⟩ ch h w hr

/-- The frame run re-posted: the result buffer at `kres`, the argument unchanged. -/
theorem run : θ_run defs (onTc (τ := τ) (main (F := Ideal))) ⟨m, fun _ => 0, ρ⟩ fun r => ∀ c : Dev nD,
      r.2.mem ((c.tc : Thread nD τ).loc main_v2) = kres m c
      ∧ r.2.mem ((c.tc : Thread nD τ).loc main_arg0) = m ((c.tc : Thread nD τ).loc main_arg0) :=
  (θ_run defs _ _).mono (fun _ h c =>
    ⟨(h c).2 main_v2 (Pipeline.mem_restRefs_of main_v2 (by decide) (by decide)),
     ((h c).2 main_arg0 (Pipeline.mem_restRefs_of main_arg0 (by decide) (by decide))).trans (W_main_arg0 m (dats m) c)⟩)
    (run_main m ρ)

end Cert.KernelIdeal.KVal

end
-- ==== Proof.LibNary3.lean ====
/-
  The result of an operation over a literal family of THREE operand references, stated with each operand's contents
  at its own reference.  For a family given as a function `Fin n → Ref` the general result lemma leaves the operands'
  contents under a binder, `fun k => F ↑(xs k)`, where no further result lemma can rewrite them.  For the literal family
  `![x, a, b]` the same function is the explicit triple of the three contents: `nary3_result` states it as nested
  `Fin.cons`; `nary3_result_of` states it for a function that is given as a function `g` of its argument's three
  components, and then no triple is left at all: the result is `g` at the three contents.
-/
import Idealize.ShloMosaic.Lib.StableHlo.Run

noncomputable section

namespace Idealize.ShloMosaic.StableHlo

variable {τ : Topo} {sig : RefSig} {Val : EltTy → Type}

variable {x a b y : Ref sig .tc}

/-- `nary` over a LITERAL family of three references `![x, a, b]` (a concatenation of three operands): at its own
    result reference `y` the operation's result is its function applied to the three operands' contents, each read AT
    ITS OWN REFERENCE — the tuple `Fin.cons (F ↑x) (Fin.cons (F ↑a) (Fin.cons (F ↑b) _))` in place of
    `fun k => F ↑(![x, a, b] k)`.  The two functions agree at each of the three indices by computation. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same result for a function `f` that reads its argument only at the three literal indices, `f u = g (u 0) (u 1) (u 2)`:
    the operation's result at its own reference is `g` at the three operands' contents, each at its own reference.  (The
    components of a triple over the family `k ↦ (![x, a, b] k).ty` have the types `x.ty`, `a.ty`, `b.ty` only after the
    literal family is evaluated at `0`, `1`, `2`; stating the function through `g` keeps that evaluation inside this
    lemma's hypothesis, where it is checked once.) -/
theorem nary3_result_of
    (f : ((k : Fin 3) → ((![x, a, b] : Fin 3 → Ref sig .tc) k).ty.Contents Val) → y.ty.Contents Val) (hxs hy)
    (g : x.ty.Contents Val → a.ty.Contents Val → b.ty.Contents Val → y.ty.Contents Val)
    (hf : ∀ u, f u = g (u 0) (u 1) (u 2)) (F : Valuation τ sig Val) :
    (nary (τ := τ) ![x, a, b] y f hxs hy).result F (Proc.devRef .tc y)
      = g (F (Proc.devRef .tc x)) (F (Proc.devRef .tc a)) (F (Proc.devRef .tc b)) := by
  rw [nary_result, hf]; rfl

end Idealize.ShloMosaic.StableHlo

end
-- ==== Proof.RefMax.lean ====
/-
  What the reference computes, as a statement about upper bounds.  The reference cuts the 64 × 64 map of every batch
  entry and channel into k × k squares of side 64 / k for k = 1, 2, 3 (for k = 3 the map is first cropped to 63 × 63),
  takes for each square the maximum over the batch, the channels and the square's pixels, and lays the 1 + 4 + 9 maxima
  side by side.  A maximum over a finite set, started from -∞, lies below a bound M exactly when every element of the set
  does; so entry j of the result lies below M exactly when every input entry in region j does.

  The steps.  A maximum-reduction over axes 0, 1, 3, 5 of an array of shape [32, 512, k, E, k, E], read at (a, a'), is the
  fold of `max` over the set of indices (b, c, a, p, a', q); it is ≤ M iff every such entry is (`reduce_le_iff`).  The
  array is the reshape of one of shape [32, 512, k·E, k·E], and entry (b, c, a, p, a', q) of the reshape is entry
  (b, c, a·E + p, a'·E + q) of the operand, the two having the same row-major position (`cast6_apply`).  As (p, q) runs
  over E × E, the pixel (a·E + p, a'·E + q) runs over the square with corner (a·E, a'·E) and side E (`level_le_iff`).
  The concatenation is read piece by piece, and the three levels' corners and sides are those of the region table.
-/
import proofs.«109256_j90254442758174_1_alg».proof.Proof.Spec
import proofs.«109256_j90254442758174_1_alg».proof.Proof.RefRead
import Idealize.ShloMosaic.PureOps.Ideal.Laws
import Idealize.ShloMosaic.Lib.Pipeline.Value
import Idealize.ShloMosaic.Lib.ValueIdx
import Idealize.ShloMosaic.Lib.ValueIdxRank6
import Mathlib.Data.Finset.Fold

noncomputable section

namespace Cert.ReferenceIdeal.RefMax

open Cert.ReferenceIdeal Cert.ReferenceIdeal.Gen Idealize.ShloMosaic Idealize.ShloMosaic.ValueIdx

/-- The bit pattern of -∞ is the least extended real. -/
theorem neg_inf_eq_bot : (FloatOps.ofBits (F := Ideal) .f32 0xFF800000#32 : EReal) = ⊥ := by
  show Ideal.ofBits .f32 0xFF800000#32 = ⊥
  simp [Ideal.ofBits, Ideal.ieee]

/-- On extended reals the float maximum is the order's maximum. -/
theorem maximumf_eq_max : (FloatOps.maximumf (F := Ideal) (φ := .f32)) = (max : EReal → EReal → EReal) := rfl

/-- A maximum-reduction over axes 0, 1, 3, 5 of an array of shape [32, 512, k, E, k, E], started from ⊥ and read at
    `(a, a')`, is at most `M` exactly when every entry `(b, c, a, p, a', q)` is. -/
theorem reduce_le_iff (k E : Nat) (src : (⟨6, ![32, 512, k, E, k, E]⟩ : Shape).Idx → EReal) {u : Shape}
    (init : u.Idx → EReal) (hu : 0 < u.numel) (hinit : init (Shape.Idx.first hu) = ⊥)
    (h : (⟨6, ![32, 512, k, E, k, E]⟩ : Shape).ReducesTo [0, 1, 3, 5] ⟨2, ![k, k]⟩) (a a' : Fin k) (M : EReal) :
    Host.reduce (max : EReal → EReal → EReal) src init h hu (ix2 a a') ≤ M
      ↔ ∀ (b : Fin 32) (c : Fin 512) (p q : Fin E), src (ix6 b c a p a' q) ≤ M := by
  rw [Host.reduce_eq_fold, hinit, Finset.fold_max_le]
  -- an index drops to (a, a') exactly when its coordinates on the kept axes 2 and 4 are a and a'
  have key : ∀ i : (⟨6, ![32, 512, k, E, k, E]⟩ : Shape).Idx, h.drop i = ix2 a a' ↔ (i 2 = a ∧ i 4 = a') := by
    intro i
    have hkept : (⟨6, ![32, 512, k, E, k, E]⟩ : Shape).kept [0, 1, 3, 5] = [2, 4] := rfl
    have e0 : ((h.drop i 0 : Fin _) : Nat) = i 2 :=
      h.drop_apply_val_of_eq i 0 2 (by rw [hkept]; exact Nat.zero_lt_two) (by simp only [hkept]; rfl)
    have e1 : ((h.drop i 1 : Fin _) : Nat) = i 4 :=
      h.drop_apply_val_of_eq i 1 4 (by rw [hkept]; exact Nat.one_lt_two) (by simp only [hkept]; rfl)
    constructor
    · intro hd
      refine ⟨Fin.ext ?_, Fin.ext ?_⟩
      · rw [← e0, hd]; rfl
      · rw [← e1, hd]; rfl
    · rintro ⟨h2, h4⟩
      funext d
      match d with
      | ⟨0, _⟩ => exact Fin.ext (e0.trans (by rw [h2]))
      | ⟨1, _⟩ => exact Fin.ext (e1.trans (by rw [h4]))
  constructor
  · rintro ⟨-, H⟩ b c p q
    exact H _ (Finset.mem_filter.2 ⟨Finset.mem_univ _, (key _).2 ⟨rfl, rfl⟩⟩)
  · intro H
    refine ⟨bot_le, fun i hi => ?_⟩
    obtain ⟨h2, h4⟩ := (key i).1 (Finset.mem_filter.1 hi).2
    rw [eq_ix6 i]
    have := H (i 0) (i 1) (i 3) (i 5)
    rw [← h2, ← h4] at this
    exact this

/-- Entry `(b, c, a, p, a', q)` of the reshape to [32, 512, k, E, k, E] of an array of shape [32, 512, k·E, k·E] is the
    array's entry `(b, c, a·E + p, a'·E + q)`: the two indices have the same row-major position. -/
theorem cast6_apply {α : Type} (k E N : Nat) (hN : k * E = N) (y : (⟨4, ![32, 512, N, N]⟩ : Shape).Idx → α)
    (hc : (⟨4, ![32, 512, N, N]⟩ : Shape).ShapeCasts ⟨6, ![32, 512, k, E, k, E]⟩)
    (b : Fin 32) (c : Fin 512) (a : Fin k) (p : Fin E) (a' : Fin k) (q : Fin E)
    (hp : a.val * E + p.val < N) (hq : a'.val * E + q.val < N) :
    shapeCast ⟨6, ![32, 512, k, E, k, E]⟩ y hc (ix6 b c a p a' q) = y (ix4 b c ⟨a.val * E + p.val, hp⟩ ⟨a'.val * E + q.val, hq⟩) := by
  refine shapeCast_apply y hc _ _ ?_
  rw [Shape.rowMajor_val_four, Shape.rowMajor_val_six]
  subst hN
  show ((b.val * 512 + c.val) * (k * E) + (a.val * E + p.val)) * (k * E) + (a'.val * E + q.val)
    = ((((b.val * 512 + c.val) * k + a.val) * E + p.val) * k + a'.val) * E + q.val
  ring

/-- One level of the pyramid.  `y` is the input `x` restricted to its first `N = k·E` rows and columns; the maximum over
    batch, channel and the `E × E` block `(a, a')` of `y` is at most `M` exactly when `x` is at most `M` on every batch entry,
    channel and pixel of the square with corner `(ho, wo) = (a·E, a'·E)` and side `E`. -/
theorem level_le_iff {k E N : Nat} (hN : k * E = N) (hN64 : N ≤ 64)
    (x : (⟨4, ![32, 512, 64, 64]⟩ : Shape).Idx → EReal) (y : (⟨4, ![32, 512, N, N]⟩ : Shape).Idx → EReal)
    (hy : ∀ (b : Fin 32) (c : Fin 512) (h w : Fin N),
      y (ix4 b c h w) = x (ix4 b c ⟨h.val, Nat.lt_of_lt_of_le h.isLt hN64⟩ ⟨w.val, Nat.lt_of_lt_of_le w.isLt hN64⟩))
    (hc : (⟨4, ![32, 512, N, N]⟩ : Shape).ShapeCasts ⟨6, ![32, 512, k, E, k, E]⟩)
    (hr : (⟨6, ![32, 512, k, E, k, E]⟩ : Shape).ReducesTo [0, 1, 3, 5] ⟨2, ![k, k]⟩)
    {u : Shape} (init : u.Idx → EReal) (hu : 0 < u.numel) (hinit : init (Shape.Idx.first hu) = ⊥)
    (a a' : Fin k) (ho wo : Nat) (hho : ho = a.val * E) (hwo : wo = a'.val * E) (M : EReal) :
    Host.reduce (max : EReal → EReal → EReal) (shapeCast ⟨6, ![32, 512, k, E, k, E]⟩ y hc) init hr hu (ix2 a a') ≤ M ↔
      ∀ (b : Fin 32) (c : Fin 512) (h w : Fin 64),
        (ho ≤ h.val ∧ h.val < ho + E ∧ wo ≤ w.val ∧ w.val < wo + E) → x (ix4 b c h w) ≤ M := by
  have hb : ∀ (t : Fin k) (p : Fin E), t.val * E + p.val < N := fun t p =>
    calc t.val * E + p.val < t.val * E + E := Nat.add_lt_add_left p.isLt _
      _ = (t.val + 1) * E := (Nat.succ_mul _ _).symm
      _ ≤ k * E := Nat.mul_le_mul_right _ t.isLt
      _ = N := hN
  rw [reduce_le_iff k E _ init hu hinit]
  constructor
  · rintro H b c h w ⟨h1, h2, h3, h4⟩
    have := H b c ⟨h.val - ho, by omega⟩ ⟨w.val - wo, by omega⟩
    rw [cast6_apply k E N hN y hc b c a _ a' _ (hb _ _) (hb _ _), hy] at this
    have eh : (⟨a.val * E + (h.val - ho), Nat.lt_of_lt_of_le (hb a ⟨h.val - ho, by omega⟩) hN64⟩ : Fin 64) = h :=
      Fin.ext (by show a.val * E + (h.val - ho) = h.val; omega)
    have ew : (⟨a'.val * E + (w.val - wo), Nat.lt_of_lt_of_le (hb a' ⟨w.val - wo, by omega⟩) hN64⟩ : Fin 64) = w :=
      Fin.ext (by show a'.val * E + (w.val - wo) = w.val; omega)
    rw [← eh, ← ew]
    exact this
  · intro H b c p q
    rw [cast6_apply k E N hN y hc b c a p a' q (hb _ _) (hb _ _), hy]
    refine H b c _ _ ⟨?_, ?_, ?_, ?_⟩
    · show ho ≤ a.val * E + p.val; omega
    · show a.val * E + p.val < ho + E; have := p.isLt; omega
    · show wo ≤ a'.val * E + q.val; omega
    · show a'.val * E + q.val < wo + E; have := q.isLt; omega

/-! ### The reference's own operations -/

/-- The reductions' initial value is ⊥. -/
theorem cst_bot : ReadP.val_main_cst (F := Ideal) (Shape.Idx.first h_S_) = (⊥ : EReal) := neg_inf_eq_bot
theorem cst0_bot : ReadP.val_main_cst_0 (F := Ideal) (Shape.Idx.first h_S_) = (⊥ : EReal) := neg_inf_eq_bot
theorem cst1_bot : ReadP.val_main_cst_1 (F := Ideal) (Shape.Idx.first h_S_) = (⊥ : EReal) := neg_inf_eq_bot

/-- The indices at which the layout operations read their operands, by coordinates. -/
theorem idx11 (j : Fin 14) : ReadP.idx_main_v11 (ix2 (n0 := 1) (n1 := 14) 0 j) = ix1 j := by
  funext d; match d with | ⟨0, _⟩ => rfl
theorem idx2 : ReadP.idx_main_v2 (ix1 (0 : Fin 1)) = ix2 (0 : Fin 1) (0 : Fin 1) := by
  funext d; match d with | ⟨0, _⟩ => rfl | ⟨1, _⟩ => rfl
theorem idx5 (q : Fin 4) : ReadP.idx_main_v5 (ix1 q)
    = ix2 (⟨q.val / 2, by have := q.isLt; omega⟩ : Fin 2) (⟨q.val % 2, by omega⟩ : Fin 2) := by
  funext d; match d with | ⟨0, _⟩ => rfl | ⟨1, _⟩ => rfl
theorem idx9 (q : Fin 9) : ReadP.idx_main_v9 (ix1 q)
    = ix2 (⟨q.val / 3, by have := q.isLt; omega⟩ : Fin 3) (⟨q.val % 3, by omega⟩ : Fin 3) := by
  funext d; match d with | ⟨0, _⟩ => rfl | ⟨1, _⟩ => rfl
theorem idx6 (b : Fin 32) (c : Fin 512) (h w : Fin 63) : ReadP.idx_main_v6 (ix4 b c h w)
    = ix4 b c (⟨h.val, by have := h.isLt; omega⟩ : Fin 64) (⟨w.val, by have := w.isLt; omega⟩ : Fin 64) := by
  funext d; match d with | ⟨0, _⟩ => rfl | ⟨1, _⟩ => rfl | ⟨2, _⟩ => rfl | ⟨3, _⟩ => rfl

section Pieces

variable (x : (⟨S32x512x64x64, .f32⟩ : BufTy).Contents (Elt Ideal))

/-- Entry 0 of the concatenation is the first piece's only entry. -/
theorem v10_lo : ReadP.val_main_v10 (F := Ideal) x (ix1 (0 : Fin 14)) = ReadP.val_main_v2 (F := Ideal) x (ix1 0) := by
  unfold ReadP.val_main_v10
  generalize ReadP.val_main_v2 (F := Ideal) x = A
  generalize ReadP.val_main_v5 (F := Ideal) x = B
  generalize ReadP.val_main_v9 (F := Ideal) x = C
  exact concatenate_apply_piece (t := S14) 0 [⟨S1, A⟩, ⟨S4, B⟩, ⟨S9, C⟩] concatenates_S1_S4_S9_S14_d0 (ix1 0) 0
    (by show (0 : Nat) < 3; omega) S1 A rfl rfl 0 rfl (ix1 0)
    (fun b hb => absurd (Fin.ext (by have : b.val < 1 := b.isLt; show b.val = 0; omega)) hb) rfl

/-- Entries 1 … 4 of the concatenation are the second piece's entries 0 … 3. -/
theorem v10_mid (q : Fin 4) : ReadP.val_main_v10 (F := Ideal) x (ix1 (⟨1 + q.val, by have := q.isLt; omega⟩ : Fin 14))
    = ReadP.val_main_v5 (F := Ideal) x (ix1 q) := by
  unfold ReadP.val_main_v10
  generalize ReadP.val_main_v2 (F := Ideal) x = A
  generalize ReadP.val_main_v5 (F := Ideal) x = B
  generalize ReadP.val_main_v9 (F := Ideal) x = C
  exact concatenate_apply_piece (t := S14) 0 [⟨S1, A⟩, ⟨S4, B⟩, ⟨S9, C⟩] concatenates_S1_S4_S9_S14_d0 (ix1 _) 1
    (by show (1 : Nat) < 3; omega) S4 B rfl rfl 1 rfl (ix1 q)
    (fun b hb => absurd (Fin.ext (by have : b.val < 1 := b.isLt; show b.val = 0; omega)) hb) rfl

/-- Entries 5 … 13 of the concatenation are the third piece's entries 0 … 8. -/
theorem v10_hi (q : Fin 9) : ReadP.val_main_v10 (F := Ideal) x (ix1 (⟨5 + q.val, by have := q.isLt; omega⟩ : Fin 14))
    = ReadP.val_main_v9 (F := Ideal) x (ix1 q) := by
  unfold ReadP.val_main_v10
  generalize ReadP.val_main_v2 (F := Ideal) x = A
  generalize ReadP.val_main_v5 (F := Ideal) x = B
  generalize ReadP.val_main_v9 (F := Ideal) x = C
  exact concatenate_apply_piece (t := S14) 0 [⟨S1, A⟩, ⟨S4, B⟩, ⟨S9, C⟩] concatenates_S1_S4_S9_S14_d0 (ix1 _) 2
    (by show (2 : Nat) < 3; omega) S9 C rfl rfl 5 rfl (ix1 q)
    (fun b hb => absurd (Fin.ext (by have : b.val < 1 := b.isLt; show b.val = 0; omega)) hb) rfl

end Pieces

/-! ### The region table against the three levels -/

/-- Regions 1 … 4 are the quadrants: region `1 + q` has corner `(32·(q / 2), 32·(q % 2))` and side 32. -/
theorem tab2 : ∀ q : Fin 4, Spp.hoff (⟨1 + q.val, by have := q.isLt; omega⟩ : Fin 14) = q.val / 2 * 32
    ∧ Spp.woff (⟨1 + q.val, by have := q.isLt; omega⟩ : Fin 14) = q.val % 2 * 32
    ∧ Spp.ext (⟨1 + q.val, by have := q.isLt; omega⟩ : Fin 14) = 32 := by decide

/-- Regions 5 … 13 are the nine squares of side 21: region `5 + q` has corner `(21·(q / 3), 21·(q % 3))`. -/
theorem tab3 : ∀ q : Fin 9, Spp.hoff (⟨5 + q.val, by have := q.isLt; omega⟩ : Fin 14) = q.val / 3 * 21
    ∧ Spp.woff (⟨5 + q.val, by have := q.isLt; omega⟩ : Fin 14) = q.val % 3 * 21
    ∧ Spp.ext (⟨5 + q.val, by have := q.isLt; omega⟩ : Fin 14) = 21 := by decide

section Levels

variable (x : (⟨S32x512x64x64, .f32⟩ : BufTy).Contents (Elt Ideal)) (M : EReal)

/-- Region 0: the maximum over the whole map. -/
theorem le_iff_lo :
    (ReadP.val_main_v11 (F := Ideal) x (ix2 (n0 := 1) (n1 := 14) 0 0) : EReal) ≤ M ↔
      ∀ (b : Fin 32) (c : Fin 512) (h w : Fin 64), Spp.InRegion 0 h.val w.val → (x (ix4 b c h w) : EReal) ≤ M := by
  rw [ReadP.val_main_v11_apply, idx11, v10_lo, ReadP.val_main_v2_apply, idx2]
  unfold ReadP.val_main_v1 ReadP.val_main_v0
  rw [maximumf_eq_max]
  exact level_le_iff (k := 1) (E := 64) (N := 64) rfl (le_refl _) x x (fun _ _ _ _ => rfl) _ _ _ h_S_ cst_bot 0 0 0 0 rfl rfl M

/-- Regions 1 … 4: the maxima over the quadrants. -/
theorem le_iff_mid (q : Fin 4) :
    (ReadP.val_main_v11 (F := Ideal) x (ix2 (n0 := 1) (n1 := 14) 0 ⟨1 + q.val, by have := q.isLt; omega⟩) : EReal) ≤ M ↔
      ∀ (b : Fin 32) (c : Fin 512) (h w : Fin 64),
        Spp.InRegion (⟨1 + q.val, by have := q.isLt; omega⟩ : Fin 14) h.val w.val → (x (ix4 b c h w) : EReal) ≤ M := by
  obtain ⟨t1, t2, t3⟩ := tab2 q
  rw [ReadP.val_main_v11_apply, idx11, v10_mid, ReadP.val_main_v5_apply, idx5]
  unfold ReadP.val_main_v4 ReadP.val_main_v3
  rw [maximumf_eq_max]
  refine (level_le_iff (k := 2) (E := 32) (N := 64) rfl (le_refl _) x x (fun _ _ _ _ => rfl) _ _ _ h_S_ cst0_bot
    (⟨q.val / 2, by have := q.isLt; omega⟩ : Fin 2) (⟨q.val % 2, by omega⟩ : Fin 2) _ _ t1 t2 M).trans ?_
  unfold Spp.InRegion
  rw [t3]

/-- Regions 5 … 13: the maxima over the nine squares of the cropped map. -/
theorem le_iff_hi (q : Fin 9) :
    (ReadP.val_main_v11 (F := Ideal) x (ix2 (n0 := 1) (n1 := 14) 0 ⟨5 + q.val, by have := q.isLt; omega⟩) : EReal) ≤ M ↔
      ∀ (b : Fin 32) (c : Fin 512) (h w : Fin 64),
        Spp.InRegion (⟨5 + q.val, by have := q.isLt; omega⟩ : Fin 14) h.val w.val → (x (ix4 b c h w) : EReal) ≤ M := by
  obtain ⟨t1, t2, t3⟩ := tab3 q
  rw [ReadP.val_main_v11_apply, idx11, v10_hi, ReadP.val_main_v9_apply, idx9]
  unfold ReadP.val_main_v8 ReadP.val_main_v7
  rw [maximumf_eq_max]
  refine (level_le_iff (k := 3) (E := 21) (N := 63) rfl (by decide) x (ReadP.val_main_v6 (F := Ideal) x)
    (fun b c h w => by rw [ReadP.val_main_v6_apply, idx6]) _ _ _ h_S_ cst1_bot
    (⟨q.val / 3, by have := q.isLt; omega⟩ : Fin 3) (⟨q.val % 3, by omega⟩ : Fin 3) _ _ t1 t2 M).trans ?_
  unfold Spp.InRegion
  rw [t3]

end Levels

/-- **The reference by upper bounds.**  Entry `j` of the reference's result is at most `M` exactly when the input is at most
    `M` at every batch entry, every channel and every pixel of region `j`. -/
theorem ref_le_iff (x : (⟨S32x512x64x64, .f32⟩ : BufTy).Contents (Elt Ideal)) (j : Fin 14) (M : EReal) :
    (ReadP.val_main_v11 (F := Ideal) x (ix2 (n0 := 1) (n1 := 14) 0 j) : EReal) ≤ M ↔
      ∀ (b : Fin 32) (c : Fin 512) (h w : Fin 64), Spp.InRegion j h.val w.val → (x (ix4 b c h w) : EReal) ≤ M := by
  obtain ⟨jv, hj⟩ := j
  by_cases h0 : jv = 0
  · subst h0
    exact le_iff_lo x M
  by_cases h4 : jv ≤ 4
  · have e : (⟨1 + (jv - 1), by omega⟩ : Fin 14) = ⟨jv, hj⟩ := Fin.ext (by show 1 + (jv - 1) = jv; omega)
    have := le_iff_mid x M ⟨jv - 1, by omega⟩
    rw [e] at this
    exact this
  · have e : (⟨5 + (jv - 5), by omega⟩ : Fin 14) = ⟨jv, hj⟩ := Fin.ext (by show 5 + (jv - 5) = jv; omega)
    have := le_iff_hi x M ⟨jv - 5, by omega⟩
    rw [e] at this
    exact this

end Cert.ReferenceIdeal.RefMax

end
-- ==== Proof.lean ====
/-
  SPPNet multi-scale max pooling, kernel against reference, over the extended reals.

  Both programs map features f32[32, 512, 64, 64] to f32[1, 14]: for each level k ∈ {1, 2, 3} and each of the k × k square
  regions of side 64 / k of the 64 × 64 map (at k = 3 the last row and column belong to no region), the maximum of the input
  over every batch entry, every channel and the region's pixels; the fourteen maxima in level order, row-major inside a level.

  The reference takes each level's maxima with one host reduction over a six-axis reshape of the input (of its 63 × 63 crop
  at k = 3) and concatenates.  The kernel streams the input through a pipeline, one batch entry (512 channels) per grid
  point: the body takes the fourteen maxima of its block, each by three successive reductions (columns, rows, channels),
  and keeps a running maximum per group of sixteen points in its output block — restarted at the group's first point,
  written back at its last —; the host then takes the maximum over the two groups.

  Every one of these reductions starts from −∞, the least extended real, and `maximumf` is `max` there, so each side's
  entry j is characterised by its upper bounds: it is ≤ M exactly when every input entry over region j is ≤ M
  (KI/Value.lean for the kernel, RefMax.lean for the reference).  Two extended reals with the same upper bounds are equal.
  No re-association of a maximum is ever needed, and the finiteness precondition is not used.

  The frames: each kernel program's run is proved on the generated launch lemmas with the body's two cases run symbolically
  (KI/Body.lean at any float instance, cited at the extended reals; K/Body.lean the same over the word-level program);
  the reference's frame is its run with the result dropped.  The idealization rewrote nothing, so `preserves` is trivial.
-/
import proofs.«109256_j90254442758174_1_alg».proof.Defs
import proofs.«109256_j90254442758174_1_alg».proof.Proof.Gen.Kernel
import proofs.«109256_j90254442758174_1_alg».proof.Proof.Gen.KernelIdeal
import proofs.«109256_j90254442758174_1_alg».proof.Proof.Gen.ReferenceIdeal
import proofs.«109256_j90254442758174_1_alg».proof.Proof.Gen.Pre_finite_inputs
import proofs.«109256_j90254442758174_1_alg».proof.Proof.K.Body
import proofs.«109256_j90254442758174_1_alg».proof.Proof.KI.Value
import proofs.«109256_j90254442758174_1_alg».proof.Proof.RefMax
import Idealize.ShloMosaic.Adequacy
import Idealize.ShloMosaic.Init

noncomputable section

namespace Cert.Proof

open Idealize.ShloMosaic Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end; the kernel's result buffer and the reference's hold, entry by entry, two extended reals with the same
    upper bounds (every input entry over the entry's region), hence the same value. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KVal.kres m c, Cert.KernelIdeal.KVal.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v11_eq, hagree c]
  funext i
  obtain ⟨p, q, rfl⟩ : ∃ (p : Fin 1) (q : Fin 14), i = ix2 p q := ⟨i 0, i 1, eq_ix2 i⟩
  obtain rfl : p = 0 := Subsingleton.elim _ _
  exact Cert.Spp.eq_of_le_iff fun M =>
    (Cert.ReferenceIdeal.RefMax.ref_le_iff _ q M).trans (Cert.KernelIdeal.KVal.kres_le_iff m c q M).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
